-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096x1024x2 : Shape := ⟨3, ![4096, 1024, 2]⟩
abbrev S4096x2 : Shape := ⟨2, ![4096, 2]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x1024x2 : S_.BroadcastsInDim S4096x1024x2 (![] : Fin 0 → Fin S4096x1024x2.rank)
  reducesTo_S4096x1024x2_S_d0_1_2 : S4096x1024x2.ReducesTo [0, 1, 2] S_
  bcast_S_S4096x2 : S_.BroadcastsInDim S4096x2 (![] : Fin 0 → Fin S4096x2.rank)
  reducesTo_S4096x2_S_d0_1 : S4096x2.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg6 : IVec S4096 32) (main_v31 : IVec S_ 1) (main_v32 : IVec S4096 32) : IVec S_ 1 :=
  let main_v33 : IVec S4096 1 := cmpi .sge main_arg6 main_v32
  let main_c_13 : IVec S_ 1 := constantI S_ 1 1#1
  let main_v34 : IVec S_ 1 := (fun x v => Host.reduce IntOp.andi x v reducesTo_S4096_S_d0 h_S_) main_v33 main_c_13
  let main_v35 : IVec S_ 1 := andi main_v31 main_v34
  let main_c_14 : IVec S_ 32 := constantI S_ 32 2048#32
  let main_v36 : IVec S4096 32 := broadcastInDim S4096 ![] bcast_S_S4096 main_c_14
  let main_v37 : IVec S4096 1 := cmpi .slt main_arg6 main_v36
  let main_c_15 : IVec S_ 1 := constantI S_ 1 1#1
  let main_v38 : IVec S_ 1 := (fun x v => Host.reduce IntOp.andi x v reducesTo_S4096_S_d0 h_S_) main_v37 main_c_15
  let main_v39 : IVec S_ 1 := andi main_v35 main_v38
  main_v39

def fn_part1 {F : FTy → Type} [FloatOps F] (main_arg4 : FVec F S4096x2 .f32) (main_arg5 : IVec S4096 32) (main_arg6 : IVec S4096 32) (main_v13 : IVec S_ 1) (main_v16 : IVec S4096x1024x2 1) : IVec S_ 1 :=
  let main_c_5 : IVec S_ 1 := constantI S_ 1 1#1
  let main_v17 : IVec S_ 1 := (fun x v => Host.reduce IntOp.andi x v reducesTo_S4096x1024x2_S_d0_1_2 h_S_) main_v16 main_c_5
  let main_v18 : IVec S_ 1 := andi main_v13 main_v17
  let main_v19 : FVec F S4096x2 .f32 := Host.absf main_arg4
  let main_cst_6 : FVec F S_ .f32 := constant S_ .f32 0x7F800000#32
  let main_v20 : FVec F S4096x2 .f32 := broadcastInDim S4096x2 ![] bcast_S_S4096x2 main_cst_6
  let main_v21 : IVec S4096x2 1 := cmpf .olt main_v19 main_v20
  let main_c_7 : IVec S_ 1 := constantI S_ 1 1#1
  let main_v22 : IVec S_ 1 := (fun x v => Host.reduce IntOp.andi x v reducesTo_S4096x2_S_d0_1 h_S_) main_v21 main_c_7
  let main_v23 : IVec S_ 1 := andi main_v18 main_v22
  let main_c_8 : IVec S_ 32 := constantI S_ 32 0#32
  let main_v24 : IVec S4096 32 := broadcastInDim S4096 ![] bcast_S_S4096 main_c_8
  let main_v25 : IVec S4096 1 := cmpi .sge main_arg5 main_v24
  let main_c_9 : IVec S_ 1 := constantI S_ 1 1#1
  let main_v26 : IVec S_ 1 := (fun x v => Host.reduce IntOp.andi x v reducesTo_S4096_S_d0 h_S_) main_v25 main_c_9
  let main_v27 : IVec S_ 1 := andi main_v23 main_v26
  let main_c_10 : IVec S_ 32 := constantI S_ 32 1024#32
  let main_v28 : IVec S4096 32 := broadcastInDim S4096 ![] bcast_S_S4096 main_c_10
  let main_v29 : IVec S4096 1 := cmpi .slt main_arg5 main_v28
  let main_c_11 : IVec S_ 1 := constantI S_ 1 1#1
  let main_v30 : IVec S_ 1 := (fun x v => Host.reduce IntOp.andi x v reducesTo_S4096_S_d0 h_S_) main_v29 main_c_11
  let main_v31 : IVec S_ 1 := andi main_v27 main_v30
  let main_c_12 : IVec S_ 32 := constantI S_ 32 0#32
  let main_v32 : IVec S4096 32 := broadcastInDim S4096 ![] bcast_S_S4096 main_c_12
  fn_part2 (F := F) main_arg6 main_v31 main_v32

def fn {F : FTy → Type} [FloatOps F] (main_arg0 : FVec F S4096x2048 .f32) (main_arg1 : FVec F S4096x2048 .f32) (main_arg2 : FVec F S4096x1024x2 .f32) (main_arg3 : FVec F S4096x1024x2 .f32) (main_arg4 : FVec F S4096x2 .f32) (main_arg5 : IVec S4096 32) (main_arg6 : IVec S4096 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x1024x2 .f32 := Host.absf main_arg2
  let main_cst_2 : FVec F S_ .f32 := constant S_ .f32 0x7F800000#32
  let main_v10 : FVec F S4096x1024x2 .f32 := broadcastInDim S4096x1024x2 ![] bcast_S_S4096x1024x2 main_cst_2
  let main_v11 : IVec S4096x1024x2 1 := cmpf .olt main_v9 main_v10
  let main_c_3 : IVec S_ 1 := constantI S_ 1 1#1
  let main_v12 : IVec S_ 1 := (fun x v => Host.reduce IntOp.andi x v reducesTo_S4096x1024x2_S_d0_1_2 h_S_) main_v11 main_c_3
  let main_v13 : IVec S_ 1 := andi main_v8 main_v12
  let main_v14 : FVec F S4096x1024x2 .f32 := Host.absf main_arg3
  let main_cst_4 : FVec F S_ .f32 := constant S_ .f32 0x7F800000#32
  let main_v15 : FVec F S4096x1024x2 .f32 := broadcastInDim S4096x1024x2 ![] bcast_S_S4096x1024x2 main_cst_4
  let main_v16 : IVec S4096x1024x2 1 := cmpf .olt main_v14 main_v15
  fn_part1 (F := F) main_arg4 main_arg5 main_arg6 main_v13 main_v16
-- ==== Kernel.lean ====
abbrev S4096x2048 : Shape := ⟨2, ![4096, 2048]⟩
abbrev S4096x1024x2 : Shape := ⟨3, ![4096, 1024, 2]⟩
abbrev S4096x2 : Shape := ⟨2, ![4096, 2]⟩
abbrev S4096 : Shape := ⟨1, ![4096]⟩
abbrev S_ : Shape := ⟨0, ![]⟩
abbrev S2048x2048 : Shape := ⟨2, ![2048, 2048]⟩
abbrev S4096x1 : Shape := ⟨2, ![4096, 1]⟩
abbrev S16x128 : Shape := ⟨2, ![16, 128]⟩
abbrev S256x2048 : Shape := ⟨2, ![256, 2048]⟩
abbrev S8x128 : Shape := ⟨2, ![8, 128]⟩
abbrev S1x1 : Shape := ⟨2, ![1, 1]⟩
abbrev S256 : Shape := ⟨1, ![256]⟩
abbrev S256x1 : Shape := ⟨2, ![256, 1]⟩
abbrev S1 : Shape := ⟨1, ![1]⟩

abbrev nBuf : Space → Nat
  | .hbm => 64
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x1024x2, .f32⟩
  | .hbm, ⟨3, _⟩ => ⟨S4096x1024x2, .f32⟩
  | .hbm, ⟨4, _⟩ => ⟨S4096x2, .f32⟩
  | .hbm, ⟨5, _⟩ => ⟨S4096, .i32⟩
  | .hbm, ⟨6, _⟩ => ⟨S4096, .i32⟩
  | .hbm, ⟨7, _⟩ => ⟨S_, .f32⟩
  | .hbm, ⟨8, _⟩ => ⟨S2048x2048, .f32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096x1, .f32⟩
  | .hbm, ⟨19, _⟩ => ⟨S4096, .f32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S4096x1, .i32⟩
  | .hbm, ⟨36, _⟩ => ⟨S4096x2, .i32⟩
  | .hbm, ⟨37, _⟩ => ⟨S2048x2048, .f32⟩
  | .hbm, ⟨38, _⟩ => ⟨S4096x1, .f32⟩
  | .hbm, ⟨39, _⟩ => ⟨S4096, .f32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S_, .i32⟩
  | .hbm, ⟨48, _⟩ => ⟨S4096, .i32⟩
  | .hbm, ⟨49, _⟩ => ⟨S4096, .i1⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S4096, .i32⟩
  | .hbm, ⟨54, _⟩ => ⟨S4096x1, .i32⟩
  | .hbm, ⟨55, _⟩ => ⟨S4096x1, .i32⟩
  | .hbm, ⟨56, _⟩ => ⟨S4096x2, .i32⟩
  | .hbm, ⟨57, _⟩ => ⟨S2048x2048, .f32⟩
  | .hbm, ⟨58, _⟩ => ⟨S2048x2048, .bf16⟩
  | .hbm, ⟨59, _⟩ => ⟨S4096x2048, .f32⟩
  | .hbm, ⟨60, _⟩ => ⟨S4096x2048, .f32⟩
  | .hbm, ⟨61, _⟩ => ⟨S16x128, .f32⟩
  | .hbm, ⟨62, _⟩ => ⟨S_, .f32⟩
  | .hbm, ⟨63, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S2048x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S8x128, .f32⟩
  | .local _ .vmem, ⟨10, _⟩ => ⟨S8x128, .f32⟩
  | .local _ .vmem, ⟨11, _⟩ => ⟨S1x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_c_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S2048x2048 : S_.BroadcastsInDim S2048x2048 (![] : Fin 0 → Fin S2048x2048.rank)
  bcast_S_S4096 : S_.BroadcastsInDim S4096 (![] : Fin 0 → Fin S4096.rank)
  slices_S4096x2_S4096x1_0_0 : S4096x2.Slices ![0, 0] S4096x1
  shapeCasts_S4096x1_S4096 : S4096x1.ShapeCasts S4096
  bcast_S4096_S4096x1_0 : S4096.BroadcastsInDim S4096x1 (![0] : Fin 1 → Fin S4096x1.rank)
  concatenates_S4096x1_S4096x1_S4096x2_d1 : Shape.Concatenates [S4096x1, S4096x1] S4096x2 1
  slices_S4096x2_S4096x1_0_1 : S4096x2.Slices ![0, 1] S4096x1
  bitsLt_bf16_f32 : FTy.bits .bf16 < FTy.bits .f32
  shapeCasts_S4096x1024x2_S4096x2048 : S4096x1024x2.ShapeCasts S4096x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S256x2048_S256x2048 : S256x2048.ShapeCasts S256x2048
  reduces_S256x2048_S256 : S256x2048.Reduces [1] S256
  shapeCasts_S256_S256x1 : S256.ShapeCasts S256x1
  reduces_S256x1_S1 : S256x1.Reduces [0] S1
  shapeCasts_S1_S1x1 : S1.ShapeCasts S1x1
  broadcasts_S1x1_S8x128 : S1x1.Broadcasts S8x128
  iota_S8x128_d0_w32 : S8x128.Iotas .tc 32 [0]
  iota_S8x128_d1_w32 : S8x128.Iotas .tc 32 [1]
  inb_S8x128_S8x128_0_0 : ∀ a, (![0, 0] : Fin 2 → Nat) a + S8x128.size a ≤ S8x128.size a
  h_S8x128 : 0 < S8x128.numel
  reducesTo_S16x128_S_d0_1 : S16x128.ReducesTo [0, 1] S_
  h_S_ : 0 < S_.numel
  scatter_S2048x2048_S4096x2_S4096_n_01_01_1_wf : ScatterDims.WF S2048x2048 S4096x2 S4096 [] [0, 1] [0, 1] 1
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S4096x2048.size a
  hwx0_3 : ∀ i : grid0.Coords, EltTy.bits .f32 = 32 ∨ (Rect.block (s := S4096x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S4096x2048.size a
  hwx0_4 : ∀ i : grid0.Coords, EltTy.bits .f32 = 32 ∨ (Rect.block (s := S4096x2048) S256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S16x128.size a
  hwx0_5 : ∀ i : grid0.Coords, EltTy.bits .f32 = 32 ∨ (Rect.block (s := S16x128) S8x128.size (cc0_transform_5 i) (hinb0_5 i)).WholeWords (EltTy.packing .f32)

variable [Facts₀]

def scatter_S2048x2048_S4096x2_S4096_n_01_01_1 : ScatterDims S2048x2048 S4096x2 S4096 where
  updateWindowDims := []
  insertedWindowDims := [0, 1]
  scatterDimsToOperandDims := [0, 1]
  indexVectorDim := 1
  wf := scatter_S2048x2048_S4096x2_S4096_n_01_01_1_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v41) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v42) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x2048 : Shape := ⟨2, ![4096, 2048]⟩
abbrev S4096x1024x2 : Shape := ⟨3, ![4096, 1024, 2]⟩
abbrev S4096x2 : Shape := ⟨2, ![4096, 2]⟩
abbrev S4096 : Shape := ⟨1, ![4096]⟩
abbrev S_ : Shape := ⟨0, ![]⟩
abbrev S4096x1 : Shape := ⟨2, ![4096, 1]⟩
abbrev S4096x4096 : Shape := ⟨2, ![4096, 4096]⟩
abbrev S4096x4096x1 : Shape := ⟨3, ![4096, 4096, 1]⟩
abbrev S1x4096x2 : Shape := ⟨3, ![1, 4096, 2]⟩
abbrev S4096x4096x2 : Shape := ⟨3, ![4096, 4096, 2]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x1024x2, .f32⟩
  | .hbm, ⟨3, _⟩ => ⟨S4096x1024x2, .f32⟩
  | .hbm, ⟨4, _⟩ => ⟨S4096x2, .f32⟩
  | .hbm, ⟨5, _⟩ => ⟨S4096, .i32⟩
  | .hbm, ⟨6, _⟩ => ⟨S4096, .i32⟩
  | .hbm, ⟨7, _⟩ => ⟨S4096x2048, .f32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S4096x4096, .f32⟩
  | .hbm, ⟨17, _⟩ => ⟨S4096x4096x1, .f32⟩
  | .hbm, ⟨18, _⟩ => ⟨S1x4096x2, .f32⟩
  | .hbm, ⟨19, _⟩ => ⟨S4096x4096x2, .f32⟩
  | .hbm, ⟨20, _⟩ => ⟨S4096x4096x2, .f32⟩
  | .hbm, ⟨21, _⟩ => ⟨S4096x4096x2, .f32⟩
  | .hbm, ⟨22, _⟩ => ⟨S_, .f32⟩
  | .hbm, ⟨23, _⟩ => ⟨S4096x1024x2, .f32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096x1024x2, .f32⟩
  | .hbm, ⟨33, _⟩ => ⟨S4096x1024x2, .f32⟩
  | .hbm, ⟨34, _⟩ => ⟨S4096x1024x2, .f32⟩
  | .hbm, ⟨35, _⟩ => ⟨S4096x1024x2, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096x4096_S4096x4096x1_0_1 : S4096x4096.BroadcastsInDim S4096x4096x1 (![0, 1] : Fin 2 → Fin S4096x4096x1.rank)
  bcast_S4096x2_S1x4096x2_1_2 : S4096x2.BroadcastsInDim S1x4096x2 (![1, 2] : Fin 2 → Fin S1x4096x2.rank)
  bcast_S4096x4096x1_S4096x4096x2_0_1_2 : S4096x4096x1.BroadcastsInDim S4096x4096x2 (![0, 1, 2] : Fin 3 → Fin S4096x4096x2.rank)
  bcast_S1x4096x2_S4096x4096x2_0_1_2 : S1x4096x2.BroadcastsInDim S4096x4096x2 (![0, 1, 2] : Fin 3 → Fin S4096x4096x2.rank)
  bcast_S_S4096x1024x2 : S_.BroadcastsInDim S4096x1024x2 (![] : Fin 0 → Fin S4096x1024x2.rank)
  reducesTo_S4096x1024x2_S_d0_1_2 : S4096x1024x2.ReducesTo [0, 1, 2] S_
  h_S_ : 0 < S_.numel
  gather_S4096x2048_S4096x1_S4096x4096_0_1_n_n_1_1_40961_wf : GatherDims.WF S4096x2048 S4096x1 S4096x4096 [0] [1] [] [1] [] 1 ![4096, 1]
  scatter_S4096x1024x2_S4096x1_S4096x4096x2_02_1_1_1_wf : ScatterDims.WF S4096x1024x2 S4096x1 S4096x4096x2 [0, 2] [1] [1] 1

variable [Facts₀]

def gather_S4096x2048_S4096x1_S4096x4096_0_1_n_n_1_1_40961 : GatherDims S4096x2048 S4096x1 S4096x4096 where
  offsetDims := [0]
  collapsedSliceDims := [1]
  operandBatchingDims := []
  startIndicesBatchingDims := []
  startIndexMap := [1]
  indexVectorDim := 1
  sliceSizes := ![4096, 1]
  wf := gather_S4096x2048_S4096x1_S4096x4096_0_1_n_n_1_1_40961_wf
def scatter_S4096x1024x2_S4096x1_S4096x4096x2_02_1_1_1 : ScatterDims S4096x1024x2 S4096x1 S4096x4096x2 where
  updateWindowDims := [0, 2]
  insertedWindowDims := [1]
  scatterDimsToOperandDims := [1]
  indexVectorDim := 1
  wf := scatter_S4096x1024x2_S4096x1_S4096x4096x2_02_1_1_1_wf

class Facts : Prop extends Facts₀ where

variable [Facts]
-- ==== Proof.KernelPieces.lean ====
import proofs.«430668_j15814069584181_3_alg».proof.Proof.Gen.KernelIdeal.Frame
import Idealize.ShloMosaic.Lib.Pipeline.Value
import Idealize.ShloMosaic.Lib.Tactic

/-! # What one grid step leaves behind, as values

A grid step's stores cover the running scalar (and, at the last step of a partial sum, the output block) with the body's
arithmetic applied to the step's operand blocks. Three kinds of step: the first of a partial sum resets the scalar to zero
and then accumulates; a middle step accumulates onto what the step before left; the last one accumulates and then writes the
scaled scalar into the output block. -/

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- A first step leaves the reset value accumulated with the block's contribution. -/
theorem sout_A (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S256x2048 .f32) (harg6 : arg6.IsWhole) (arg7 : Memref sig .tc .vmem S8x128 .f32) (harg7 : arg7.IsWhole) (arg8 : Memref sig .tc .vmem S1x1 .f32) (harg8 : arg8.IsWhole) (hc0 : cond0_0 i) (hc1 : ¬cond0_1 i)
    (x0 : Vec F S256x2048 .f32) (x1 : Vec F S256x2048 .f32) (x2 : Vec F S2048x2048 .bf16) (x3 : Vec F S256x2048 .f32) (x4 : Vec F S256x2048 .f32) :
    sout0_A_0 c i arg2 harg2 arg3 harg3 arg4 harg4 arg5 harg5 arg6 harg6 arg7 harg7 arg8 harg8 hc0 hc1 x0 x1 x2 x3 x4 = k0_pay2 x0 x1 x2 x3 x4 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, harg8.read_unread, View.ld_unit_zero (S := S256x2048) hz, View.ld_unit_zero (S := S2048x2048) hz, View.ld_unit_zero (S := S1x1) hz, View.readCov_unit_zero (S := S1x1) _ hz]

/-- A middle step leaves what the step before left, accumulated with the block's contribution. -/
theorem sout_B (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S256x2048 .f32) (harg6 : arg6.IsWhole) (arg7 : Memref sig .tc .vmem S8x128 .f32) (harg7 : arg7.IsWhole) (arg8 : Memref sig .tc .vmem S1x1 .f32) (harg8 : arg8.IsWhole) (hc0 : ¬cond0_0 i) (hc1 : ¬cond0_1 i)
    (x0 : Vec F S256x2048 .f32) (x1 : Vec F S256x2048 .f32) (x2 : Vec F S2048x2048 .bf16) (x3 : Vec F S256x2048 .f32) (x4 : Vec F S256x2048 .f32) (xs0 : Vec F S1x1 .f32) :
    sout0_B_0 c i arg2 harg2 arg3 harg3 arg4 harg4 arg5 harg5 arg6 harg6 arg7 harg7 arg8 harg8 hc0 hc1 x0 x1 x2 x3 x4 xs0 = k0_pay2 x0 x1 x2 x3 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz]
  simp only [View.readAt_eq_ld, harg2.read_unread, harg3.read_unread, harg4.read_unread, harg5.read_unread, harg6.read_unread, harg8.read_unread, View.ld_unit_zero (S := S256x2048) hz, View.ld_unit_zero (S := S2048x2048) hz, View.ld_unit_zero (S := S1x1) hz, View.readCov_unit_zero (S := S1x1) _ hz]

/-- A last step leaves the same in the running scalar, -/
theorem sout_C (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S256x2048 .f32) (harg6 : arg6.IsWhole) (arg7 : Memref sig .tc .vmem S8x128 .f32) (harg7 : arg7.IsWhole) (arg8 : Memref sig .tc .vmem S1x1 .f32) (harg8 : arg8.IsWhole) (hc0 : ¬cond0_0 i) (hc1 : cond0_1 i)
    (x0 : Vec F S256x2048 .f32) (x1 : Vec F S256x2048 .f32) (x2 : Vec F S2048x2048 .bf16) (x3 : Vec F S256x2048 .f32) (x4 : Vec F S256x2048 .f32) (xs0 : Vec F S1x1 .f32) :
    sout0_C_0 c i arg2 harg2 arg3 harg3 arg4 harg4 arg5 harg5 arg6 harg6 arg7 harg7 arg8 harg8 hc0 hc1 x0 x1 x2 x3 x4 xs0 = k0_pay2 x0 x1 x2 x3 x4 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread, harg6.read_unread, harg8.read_unread, View.ld_unit_zero (S := S256x2048) hz, View.ld_unit_zero (S := S2048x2048) hz, View.ld_unit_zero (S := S1x1) hz, View.readCov_unit_zero (S := S1x1) _ hz]

/-- and the output block built from that scalar. -/
theorem out_C (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S256x2048 .f32) (harg6 : arg6.IsWhole) (arg7 : Memref sig .tc .vmem S8x128 .f32) (harg7 : arg7.IsWhole) (arg8 : Memref sig .tc .vmem S1x1 .f32) (harg8 : arg8.IsWhole) (hc0 : ¬cond0_0 i) (hc1 : cond0_1 i)
    (x0 : Vec F S256x2048 .f32) (x1 : Vec F S256x2048 .f32) (x2 : Vec F S2048x2048 .bf16) (x3 : Vec F S256x2048 .f32) (x4 : Vec F S256x2048 .f32) (xs0 : Vec F S1x1 .f32) :
    out0_C_5 c i arg2 harg2 arg3 harg3 arg4 harg4 arg5 harg5 arg6 harg6 arg7 harg7 arg8 harg8 hc0 hc1 x0 x1 x2 x3 x4 xs0 = k0_pay3 (k0_pay2 x0 x1 x2 x3 x4 xs0) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread, harg6.read_unread, harg8.read_unread, View.ld_unit_zero (S := S256x2048) hz, View.ld_unit_zero (S := S2048x2048) hz, View.ld_unit_zero (S := S1x1) hz, View.readCov_unit_zero (S := S1x1) _ hz]

end Cert.KernelIdeal.Pieces

end
-- ==== Proof.KernelPay.lean ====
import proofs.«430668_j15814069584181_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-! # The kernel body's arithmetic, read at an index

One grid step takes a block of 256 batch rows: it multiplies the two force factors entry by entry, multiplies the 256 x 2048
product by the 2048 x 2048 weight matrix, subtracts the loads and the reactions, squares, sums each row, sums the rows, and
adds the total to the running scalar. The last step of a partial sum scales the scalar and writes it to entry (0, 0) of an
8 x 128 block of zeros. -/

open scoped BigOperators

noncomputable section

namespace Cert.KernelIdeal.Pay

open Cert.KernelIdeal Cert.KernelIdeal.Gen
open Idealize.ShloMosaic Idealize.ShloMosaic.TcCoe Idealize.ShloMosaic.ValueIdx

/-- The sum of squared residuals of one block of 256 batch rows, from the block's five operands. -/
def bsum (x0 x1 : S256x2048.Idx → EReal) (x2 : S2048x2048.Idx → EReal) (x3 x4 : S256x2048.Idx → EReal) : EReal :=
  ∑ p : Fin 256, ∑ col : Fin 2048,
    (((∑ j : Fin 2048, (x0 (ix2 p j) * x1 (ix2 p j)) * x2 (ix2 j col)) - x3 (ix2 p col)) - x4 (ix2 p col))
    * (((∑ j : Fin 2048, (x0 (ix2 p j) * x1 (ix2 p j)) * x2 (ix2 j col)) - x3 (ix2 p col)) - x4 (ix2 p col))

/-- The reset value is zero. -/
theorem pay1_apply (y : S1x1.Idx) : k0_pay1 (F := Ideal) y = 0 := by
  unfold k0_pay1
  rw [shapeCast_self]
  exact Ideal.ofBits_zero_f32

/-- The dot record of the block product: rows times columns, contracting the 2048 inner coordinates. -/
abbrev DD : DotDims S256x2048 S2048x2048 S256x2048 := dot_S256x2048_S2048x2048_S256x2048_1_0_0_1_n_n

theorem lhs_dot_S256x2048_S2048x2048_S256x2048_1_0_0_1_n_n_0 (p : Fin 256) (col : Fin 2048) (k : DD.contr.Idx) :
    (DD.lhsIdx (ix2 p col) k 0).val = p.val := by
  simp [DotDims.lhsIdx, dot_S256x2048_S2048x2048_S256x2048_1_0_0_1_n_n]; rfl

theorem lhs_dot_S256x2048_S2048x2048_S256x2048_1_0_0_1_n_n_1 (p : Fin 256) (col : Fin 2048) (k : DD.contr.Idx) :
    (DD.lhsIdx (ix2 p col) k 1).val = (k ⟨0, Nat.one_pos⟩).val :=
  DotDims.lhsIdx_val_of_single DD (cl := 1) rfl (ix2 p col) k

theorem rhs_dot_S256x2048_S2048x2048_S256x2048_1_0_0_1_n_n_0 (p : Fin 256) (col : Fin 2048) (k : DD.contr.Idx) :
    (DD.rhsIdx (ix2 p col) k 0).val = (k ⟨0, Nat.one_pos⟩).val :=
  DotDims.rhsIdx_val_of_single DD (cr := 0) rfl (ix2 p col) k

theorem rhs_dot_S256x2048_S2048x2048_S256x2048_1_0_0_1_n_n_1 (p : Fin 256) (col : Fin 2048) (k : DD.contr.Idx) :
    (DD.rhsIdx (ix2 p col) k 1).val = col.val := by
  simp [DotDims.rhsIdx, dot_S256x2048_S2048x2048_S256x2048_1_0_0_1_n_n]; rfl

/-- The block product into a zero accumulator, read at (p, col): the sum over the inner coordinate. -/
theorem matmul_read {φ₁ φ₂ : FTy} (A : FVec Ideal S256x2048 φ₁) (B : FVec Ideal S2048x2048 φ₂) (p : Fin 256) (col : Fin 2048) :
    matmul DD none A B (constant (F := Ideal) S256x2048 .f32 0x00000000#32) (ix2 p col)
      = ∑ j : Fin 2048, A (ix2 p j) * B (ix2 j col) := by
  show FloatOps.matmul DD none A B (constant (F := Ideal) S256x2048 .f32 0x00000000#32) (ix2 p col) = _
  rw [Ideal.matmul_constant_zero_apply, ← Equiv.sum_comp (contrEquiv1 DD 2048 rfl rfl).symm]
  refine Finset.sum_congr rfl fun j _ => ?_
  have hk := contrEquiv1_symm_val DD 2048 rfl rfl j
  have hl : DD.lhsIdx (ix2 p col) ((contrEquiv1 DD 2048 rfl rfl).symm j) = ix2 p j := by
    funext ax; apply Fin.ext
    match ax with
    | ⟨0, _⟩ => exact lhs_dot_S256x2048_S2048x2048_S256x2048_1_0_0_1_n_n_0 _ _ _
    | ⟨1, _⟩ => exact (lhs_dot_S256x2048_S2048x2048_S256x2048_1_0_0_1_n_n_1 _ _ _).trans hk
  have hr : DD.rhsIdx (ix2 p col) ((contrEquiv1 DD 2048 rfl rfl).symm j) = ix2 j col := by
    funext ax; apply Fin.ext
    match ax with
    | ⟨0, _⟩ => exact (rhs_dot_S256x2048_S2048x2048_S256x2048_1_0_0_1_n_n_0 _ _ _).trans hk
    | ⟨1, _⟩ => exact rhs_dot_S256x2048_S2048x2048_S256x2048_1_0_0_1_n_n_1 _ _ _
  rw [hl, hr]

/-- The sum along each row of a 256 x 2048 block, read at row p. -/
theorem rowsum_read (X : FVec Ideal S256x2048 .f32) (hφ : FKind.Formats .f32)
    (hacc : (0x00000000#32 : BitVec (FTy.bits .f32)) = FKind.add.neutral .f32 hφ) (p : Fin 256) :
    multiReduction (F := Ideal) .add [1] S256 X 0x00000000#32 reduces_S256x2048_S256 hφ hacc (ix1 p)
      = ∑ c : Fin 2048, X (ix2 p c) := by
  refine (Ideal.multiReduction_add_single X _ reduces_S256x2048_S256 hφ hacc (ix1 p)).trans ?_
  refine Finset.sum_congr rfl fun c _ => congrArg X ?_
  funext ax; apply Fin.ext
  match ax with
  | ⟨0, _⟩ => rfl
  | ⟨1, _⟩ => rfl

/-- A length-256 vector viewed as a 256 x 1 column. -/
theorem cast_col_read {α : Type} (v : S256.Idx → α) (p : Fin 256) (u : Fin 1) :
    shapeCast S256x1 v shapeCasts_S256_S256x1 (ix2 p u) = v (ix1 p) :=
  shapeCast_apply v shapeCasts_S256_S256x1 _ _ (by
    have hu : u.val = 0 := by omega
    rw [Shape.rowMajor_val_two, Shape.rowMajor_val_one]
    show p.val = p.val * 1 + u.val
    rw [hu, Nat.mul_one, Nat.add_zero])

/-- The sum down the one column of a 256 x 1 block. -/
theorem colsum_read (Y : FVec Ideal S256x1 .f32) (hφ : FKind.Formats .f32)
    (hacc : (0x00000000#32 : BitVec (FTy.bits .f32)) = FKind.add.neutral .f32 hφ) (u : Fin 1) :
    multiReduction (F := Ideal) .add [0] S1 Y 0x00000000#32 reduces_S256x1_S1 hφ hacc (ix1 u)
      = ∑ p : Fin 256, Y (ix2 p u) := by
  refine (Ideal.multiReduction_add_single Y _ reduces_S256x1_S1 hφ hacc (ix1 u)).trans ?_
  refine Finset.sum_congr rfl fun p _ => congrArg Y ?_
  funext ax; apply Fin.ext
  match ax with
  | ⟨0, _⟩ => rfl
  | ⟨1, _⟩ => rfl

/-- A length-1 vector viewed as a 1 x 1 block. -/
theorem cast_11_read {α : Type} (v : S1.Idx → α) (a b : Fin 1) :
    shapeCast S1x1 v shapeCasts_S1_S1x1 (ix2 a b) = v (ix1 (0 : Fin 1)) :=
  shapeCast_apply v shapeCasts_S1_S1x1 _ _ (by
    have ha : a.val = 0 := by omega
    have hb : b.val = 0 := by omega
    rw [Shape.rowMajor_val_two, Shape.rowMajor_val_one]
    show (0 : Nat) = a.val * 1 + b.val
    rw [ha, hb])

/-- The accumulating step: the running scalar plus the block's sum of squares. -/
theorem pay2_apply (x0 x1 : Vec Ideal S256x2048 .f32) (x2 : Vec Ideal S2048x2048 .bf16) (x3 x4 : Vec Ideal S256x2048 .f32)
    (xs : Vec Ideal S1x1 .f32) (y : S1x1.Idx) :
    k0_pay2 (F := Ideal) x0 x1 x2 x3 x4 xs y = xs y + bsum x0 x1 x2 x3 x4 := by
  obtain ⟨a, b, rfl⟩ : ∃ (a b : Fin 1), y = ix2 a b := ⟨y 0, y 1, eq_ix2 y⟩
  unfold k0_pay2
  rw [shapeCast_self, shapeCast_self, shapeCast_self, shapeCast_self, addf_apply]
  refine congrArg (xs (ix2 a b) + ·) ?_
  rw [cast_11_read]
  refine (colsum_read _ _ _ (0 : Fin 1)).trans ?_
  unfold bsum
  refine Finset.sum_congr rfl fun p _ => ?_
  rw [cast_col_read]
  refine (rowsum_read _ _ _ p).trans ?_
  refine Finset.sum_congr rfl fun col _ => ?_
  rw [mulf_apply, subf_apply, subf_apply]
  have hm : matmul dot_S256x2048_S2048x2048_S256x2048_1_0_0_1_n_n none (truncf (F := Ideal) .bf16 (mulf x0 x1) bitsLt_bf16_f32) x2
        (constant (F := Ideal) S256x2048 .f32 0x00000000#32) (ix2 p col)
      = ∑ j : Fin 2048, (x0 (ix2 p j) * x1 (ix2 p j)) * x2 (ix2 j col) :=
    matmul_read (φ₁ := .bf16) (φ₂ := .bf16) (truncf .bf16 (mulf x0 x1) bitsLt_bf16_f32) x2 p col
  rw [hm]

/-- Comparing the 32-bit word of a small natural with the zero word: one exactly when the natural is zero. -/
theorem cmpi_eq_zero_word (n : Nat) (h : n < 2 ^ 32) :
    IntOp.cmpi .eq (BitVec.ofNat 32 n) 0#32 = if n = 0 then 1#1 else 0#1 := by
  unfold IntOp.cmpi
  by_cases hn : n = 0
  · subst hn; rfl
  · rw [if_neg hn]
    have hne : (BitVec.ofNat 32 n == 0#32) = false := by
      rw [beq_eq_false_iff_ne]
      intro e
      have e' := congrArg BitVec.toNat e
      rw [BitVec.toNat_ofNat, Nat.mod_eq_of_lt h] at e'
      exact hn e'
    show BitVec.ofBool (BitVec.ofNat 32 n == 0#32) = 0#1
    rw [hne]; rfl

/-- The conjunction of two one-bit conditions, each a decided proposition. -/
theorem andi_ite (P Q : Prop) [Decidable P] [Decidable Q] :
    IntOp.andi (if P then 1#1 else 0#1) (if Q then 1#1 else 0#1) = if P ∧ Q then 1#1 else 0#1 := by
  unfold IntOp.andi
  by_cases hP : P <;> by_cases hQ : Q <;> simp only [hP, hQ, if_true, if_false, and_self, and_true, and_false] <;> rfl

/-- The final step's block: the scaled scalar at entry (0, 0), zero elsewhere. -/
theorem pay3_apply (v : Vec Ideal S1x1 .f32) (r : Fin 8) (l : Fin 128) :
    k0_pay3 (F := Ideal) v (ix2 r l)
      = if r.val = 0 ∧ l.val = 0 then v (ix2 0 0) * Ideal.ofBits .f32 0x34000000#32 else 0 := by
  unfold k0_pay3
  rw [shapeCast_self, select_apply]
  have hb : broadcastTo S8x128 (mulf v (broadcast S1x1 (FloatOps.ofBits (F := Ideal) .f32 0x34000000#32))) broadcasts_S1x1_S8x128 (ix2 r l)
      = v (ix2 0 0) * Ideal.ofBits .f32 0x34000000#32 := by
    refine (broadcastTo_apply _ broadcasts_S1x1_S8x128 (ix2 r l) (ix2 (0 : Fin 1) (0 : Fin 1)) fun ax => ?_).trans ?_
    · match ax with
      | ⟨0, _⟩ => rfl
      | ⟨1, _⟩ => rfl
    · rfl
  have hc : andi (cmpi CmpIPredicate.eq (iota Kind.tc S8x128 32 [0] iota_S8x128_d0_w32) (broadcast S8x128 0#32))
        (cmpi CmpIPredicate.eq (iota Kind.tc S8x128 32 [1] iota_S8x128_d1_w32) (broadcast S8x128 0#32)) (ix2 r l)
      = if r.val = 0 ∧ l.val = 0 then 1#1 else 0#1 := by
    show IntOp.andi (IntOp.cmpi .eq (iota Kind.tc S8x128 32 [0] iota_S8x128_d0_w32 (ix2 r l)) 0#32)
        (IntOp.cmpi .eq (iota Kind.tc S8x128 32 [1] iota_S8x128_d1_w32 (ix2 r l)) 0#32) = _
    rw [iota_single_apply, iota_single_apply]
    show IntOp.andi (IntOp.cmpi .eq (BitVec.ofNat 32 r.val) 0#32) (IntOp.cmpi .eq (BitVec.ofNat 32 l.val) 0#32) = _
    rw [cmpi_eq_zero_word r.val (by have := r.isLt; omega), cmpi_eq_zero_word l.val (by have := l.isLt; omega), andi_ite]
  rw [hb, hc, broadcast_apply]
  by_cases h : r.val = 0 ∧ l.val = 0
  · rw [if_pos h, if_pos h, select_one]
  · rw [if_neg h, if_neg h, select_zero]
    exact Ideal.ofBits_zero_f32

end Cert.KernelIdeal.Pay

end
-- ==== Proof.Spec.lean ====
import Idealize.ShloMosaic.PureOps.Ideal

/-! # The mean squared nodal residual, written two ways

A truss has 2048 elements and 1024 nodes; a batch row `b` carries an axial force `EA b j * e b j` in each element `j`.
Incidence entry `k` (of 4096) says: element `el k` pushes node `nd k` with the 2-vector `vecs k ·`. The nodal residual
is the sum of those pushes minus the loads `q` and the reactions `r`; the quantity of interest is the mean of its
squares over batch rows, nodes and the two channels.

* `rval` gathers the force of each incidence entry's element, scales it by the entry's vector and sums the entries of
  each node (the sparse form).
* `kval` first adds the incidence vectors into a dense 2048 x 2048 weight matrix `mintAt` whose column `2 n + c` is
  channel `c` of node `n`, multiplies the forces by it, and sums the squares block by block: sixteen blocks of 256 batch
  rows, eight blocks to each of two partial sums, each partial sum scaled by the reciprocal of the count before the two are
  added (the dense form).

Everything here is a plain function of `Fin`-indexed families of extended reals. -/

open scoped BigOperators

noncomputable section

namespace Cert.Residual

open Idealize.ShloMosaic

/-- Batch row `256 g + p`: row `p` of block `g`. -/
def brow (g : Fin 16) (p : Fin 256) : Fin 4096 := ⟨256 * g.val + p.val, by omega⟩

/-- Block `8 c + i`: the `i`-th block of partial sum `c`. -/
def gidx (c : Fin 2) (i : Fin 8) : Fin 16 := ⟨8 * c.val + i.val, by omega⟩

/-- Column `2 n + c`: channel `c` of node `n` in the flattened layout. -/
def fcol (n : Fin 1024) (c : Fin 2) : Fin 2048 := ⟨2 * n.val + c.val, by omega⟩

/-- A (node, channel) family read in the flattened layout: column `col` is node `col / 2`, channel `col % 2`. -/
def flat (q : Fin 4096 → Fin 1024 → Fin 2 → EReal) (b : Fin 4096) (col : Fin 2048) : EReal :=
  q b ⟨col.val / 2, by omega⟩ ⟨col.val % 2, by omega⟩

section dense
variable (EA e : Fin 4096 → Fin 2048 → EReal) (M : Fin 2048 → Fin 2048 → EReal) (qf rf : Fin 4096 → Fin 2048 → EReal)

/-- The dense form's residual at batch row `b`, flattened column `col`: forces times weights, minus loads, minus reactions. -/
def kres (b : Fin 4096) (col : Fin 2048) : EReal :=
  ((∑ j : Fin 2048, (EA b j * e b j) * M j col) - qf b col) - rf b col

/-- The sum of squared residuals over block `g`: 256 batch rows, rows outermost. -/
def kblock (g : Fin 16) : EReal :=
  ∑ p : Fin 256, ∑ col : Fin 2048, kres EA e M qf rf (brow g p) col * kres EA e M qf rf (brow g p) col

/-- Partial sum `c`: its eight blocks. -/
def kcore (c : Fin 2) : EReal := ∑ i : Fin 8, kblock EA e M qf rf (gidx c i)

/-- The dense form's value: each partial sum scaled by `k`, then added. -/
def kval (k : EReal) : EReal := kcore EA e M qf rf 0 * k + kcore EA e M qf rf 1 * k

end dense

section sparse
variable (EA e : Fin 4096 → Fin 2048 → EReal) (vecs : Fin 4096 → Fin 2 → EReal)
  (q r : Fin 4096 → Fin 1024 → Fin 2 → EReal) (nd : Fin 4096 → Fin 1024) (el : Fin 4096 → Fin 2048)

/-- The dense weight matrix: entry `(j, col)` collects channel 0 of the incidence entries of element `j` whose node's even
    column is `col`, then channel 1 of those whose node's odd column is `col`. -/
def mintAt (j col : Fin 2048) : EReal :=
  (∑ k ∈ Finset.univ.filter (fun k : Fin 4096 => el k = j ∧ 2 * (nd k).val = col.val), vecs k 0)
  + (∑ k ∈ Finset.univ.filter (fun k : Fin 4096 => el k = j ∧ 2 * (nd k).val + 1 = col.val), vecs k 1)

/-- The sparse form's residual at batch row `b`, node `n`, channel `c`. -/
def rres (b : Fin 4096) (n : Fin 1024) (c : Fin 2) : EReal :=
  ((∑ k ∈ Finset.univ.filter (fun k : Fin 4096 => nd k = n), (EA b (el k) * e b (el k)) * vecs k c) - q b n c) - r b n c

/-- The sparse form's value: the sum of all squared residuals, divided by `K`. -/
def rval (K : EReal) : EReal :=
  Ideal.div (∑ b : Fin 4096, ∑ n : Fin 1024, ∑ c : Fin 2, rres EA e vecs q r nd el b n c * rres EA e vecs q r nd el b n c) K

end sparse

end Cert.Residual

end
-- ==== Proof.TailSum.lean ====
import Idealize.ShloMosaic.Lib.ValueIdx

/-! # A sum with two non-zero cells

A `16 x 128` array that is zero except in column `0` of rows `0` and `8` sums to those two entries: the sum over a row is its
column-`0` entry, and of the sixteen rows only those whose number is a multiple of `8` carry one. No finiteness is needed:
the other terms are the zero of the extended reals. -/

open scoped BigOperators

namespace Cert.TailSum

open Idealize.ShloMosaic Idealize.ShloMosaic.ValueIdx

/-- The sum of an array supported on the cells `(0, 0)` and `(8, 0)` is the sum of those two cells. -/
theorem sum_two_cells (a : Fin 16 → EReal) (G : (⟨2, ![16, 128]⟩ : Shape).Idx → EReal)
    (hG : ∀ (R : Fin 16) (l : Fin 128), G (ix2 R l) = if R.val % 8 = 0 ∧ l.val = 0 then a R else 0) :
    ∑ i : (⟨2, ![16, 128]⟩ : Shape).Idx, G i = a 0 + a 8 := by
  rw [sum_idx2]
  have inner : ∀ R : Fin 16, ∑ l : Fin 128, G (ix2 R l) = if R.val % 8 = 0 then a R else 0 := by
    intro R
    rw [Finset.sum_eq_single (0 : Fin 128)]
    · rw [hG]
      simp only [Fin.val_zero, and_true]
    · intro l _ hl
      rw [hG, if_neg]
      rintro ⟨_, h0⟩
      exact hl (Fin.ext h0)
    · intro h; exact absurd (Finset.mem_univ _) h
  simp only [inner]
  rw [← Finset.sum_filter]
  have hf : (Finset.univ.filter (fun R : Fin 16 => R.val % 8 = 0)) = {0, 8} := by decide
  rw [hf, Finset.sum_pair (by decide)]

end Cert.TailSum
-- ==== Proof.KernelTail.lean ====
import proofs.«430668_j15814069584181_3_alg».proof.Proof.Gen.KernelIdeal.Frame
import Idealize.ShloMosaic.Lib.Pipeline.Value
import Idealize.ShloMosaic.Lib.StableHlo.Run
import Idealize.ShloMosaic.PureOps.Ideal.Laws

/-! # The host's last step: the sum of the output array

After the launch the program forms the constant `0` and reduces the kernel's `16 x 128` output array over both axes with
`add`, starting from that constant. At the ideal values a reduction into the rank-0 shape is the initial value plus the
sum of EVERY entry of the source; the source is the sixth window's array as the launch leaves it, which no later
operation writes. -/

noncomputable section

namespace Cert.KernelIdeal.Tail

open Cert.KernelIdeal Cert.KernelIdeal.Gen
open Idealize.ShloMosaic Idealize.ShloMosaic.TcCoe Idealize.SL.Sem

variable (m : (ℓ : Loc nD τ sig) → Buf (Elt Ideal) ℓ)

/-- The kernel's `16 x 128` output array as the launch leaves it: the sixth window's array after the last grid point,
    named at its literal type. -/
abbrev outArr (c : Dev nD) : (⟨S16x128, .f32⟩ : BufTy).Contents (Elt Ideal) := (dats m 0 c).arrAt 5 cfg0.N

theorem outArr_eq (c : Dev nD) : outArr m c = (dats m 0 c).arrAt 5 cfg0.N := rfl

/-- After the launch the host sums the `16 x 128` output array: the result is zero plus the sum of every entry. -/
theorem tail_eq (c : Dev nD) :
    Pipeline.afterTail₀ cfgs (dats m) 0 (V0 m) [hostOps1] c main_v43
      = fun _ => Ideal.ofBits .f32 0x00000000#32 + ∑ i : S16x128.Idx, outArr m c i := by
  unfold Pipeline.afterTail₀
  -- the reduction reads the sixth array only: every other content is arbitrary
  generalize (V0 m c) = V00
  have hA : (fun w => (dats m 0 c).arrAt w (cfgs 0).N) 5 = outArr m c := rfl
  generalize (fun w => (dats m 0 c).arrAt w (cfgs 0).N) = A at hA
  show StableHlo.after hostOps1 _ (Proc.devRef .tc main_v43) = _
  after_results
  -- the reduction's source is the sixth window's array
  have h5 : Pipeline.withArrays (cfgs 0).spec c V00 A (Proc.devRef .tc main_v42) = A 5 :=
    Pipeline.withArrays_arr spec0 launch0.win.arr_inj c V00 A 5
  rw [h5, hA]
  generalize outArr m c = y0
  funext j
  simp only [Host.reduceAdd, Ideal.hostReduceAdd_def]
  -- into the rank-0 shape: the initial value plus the total sum
  exact Ideal.hostReduceAdd_total reducesTo_S16x128_S_d0_1 (fun b => b.elim0) y0 _ j

end Cert.KernelIdeal.Tail

end
-- ==== Proof.KernelValue.lean ====
import proofs.«430668_j15814069584181_3_alg».proof.Proof.Gen.KernelIdeal.Frame
import proofs.«430668_j15814069584181_3_alg».proof.Proof.KernelPieces
import proofs.«430668_j15814069584181_3_alg».proof.Proof.KernelPay
import proofs.«430668_j15814069584181_3_alg».proof.Proof.Spec
import proofs.«430668_j15814069584181_3_alg».proof.Proof.TailSum
import proofs.«430668_j15814069584181_3_alg».proof.Proof.KernelTail
import Idealize.ShloMosaic.Lib.Pipeline.Value
import Idealize.ShloMosaic.Lib.StableHlo.Run
import Idealize.ShloMosaic.Lib.Tactic
import Idealize.ShloMosaic.PureOps.Ideal.Laws

open scoped BigOperators

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The five operand blocks of grid step `t`, at their literal types. -/
abbrev blk0 (c : Dev nD) (t : Fin cfg0.N) : Vec Ideal S256x2048 .f32 := iblk m c 0 t
abbrev blk1 (c : Dev nD) (t : Fin cfg0.N) : Vec Ideal S256x2048 .f32 := iblk m c 1 t
abbrev blk2 (c : Dev nD) (t : Fin cfg0.N) : Vec Ideal S2048x2048 .bf16 := iblk m c 2 t
abbrev blk3 (c : Dev nD) (t : Fin cfg0.N) : Vec Ideal S256x2048 .f32 := iblk m c 3 t
abbrev blk4 (c : Dev nD) (t : Fin cfg0.N) : Vec Ideal S256x2048 .f32 := iblk m c 4 t

/-- Grid step `n`'s contribution: the sum of squared residuals of its block. -/
def bs (c : Dev nD) (n : ℕ) (h : n < cfg0.N) : EReal :=
  Pay.bsum (blk0 m c ⟨n, h⟩) (blk1 m c ⟨n, h⟩) (blk2 m c ⟨n, h⟩) (blk3 m c ⟨n, h⟩) (blk4 m c ⟨n, h⟩)

/-- The running scalar after grid step `n`: reset at the steps divisible by eight, accumulated otherwise. -/
def accAt (c : Dev nD) : (n : ℕ) → n < cfg0.N → EReal
  | 0, h => 0 + bs m c 0 h
  | n + 1, h => if (n + 1) % 8 = 0 then 0 + bs m c (n + 1) h else accAt c n (Nat.lt_of_succ_lt h) + bs m c (n + 1) h

/-- The running scalar the kernel carries IS that fold, by induction on the grid step. -/
theorem scr_eq (c : Dev nD) : ∀ (n : ℕ) (h : n < cfg0.N), (outsAt0 m c n h).2 = fun _ => accAt m c n h
  | 0, h => by
    rw [outsAt0_A m c ⟨0, h⟩ rfl (by show ¬ 0 % 8 = 7; omega)]
    dsimp only
    rw [Pieces.sout_A]
    funext y
    rw [Pay.pay2_apply, Pay.pay1_apply]
    rfl
  | n + 1, h => by
    have hN : cfg0.N = 16 := N_0
    by_cases h0 : (n + 1) % 8 = 0
    · have h1 : ¬ (n + 1) % 8 = 7 := by omega
      rw [outsAt0_A m c ⟨n + 1, h⟩ h0 h1]
      dsimp only
      rw [Pieces.sout_A]
      funext y
      rw [Pay.pay2_apply, Pay.pay1_apply]
      show _ = accAt m c (n + 1) h
      rw [accAt, if_pos h0]
      rfl
    · by_cases h1 : (n + 1) % 8 = 7
      · rw [outsAt0_C m c ⟨n + 1, h⟩ h0 h1]
        dsimp only
        rw [Pieces.sout_C]
        funext y
        rw [Pay.pay2_apply]
        show (outsAt0 m c n _).2 y + _ = accAt m c (n + 1) h
        rw [scr_eq c n, accAt, if_neg h0]
        rfl
      · rw [outsAt0_B m c ⟨n + 1, h⟩ h0 h1]
        dsimp only
        rw [Pieces.sout_B]
        funext y
        rw [Pay.pay2_apply]
        show (outsAt0 m c n _).2 y + _ = accAt m c (n + 1) h
        rw [scr_eq c n, accAt, if_neg h0]
        rfl

/-- The fold does not depend on how its step number is written. -/
theorem accAt_congr (c : Dev nD) {n n' : ℕ} (e : n = n') (h : n < cfg0.N) (h' : n' < cfg0.N) :
    accAt m c n h = accAt m c n' h' := by
  subst e; rfl

/-- The scale the last step of a partial sum applies. -/
abbrev kk : EReal := Ideal.ofBits .f32 0x34000000#32

/-- The output block a last step leaves: the scaled running scalar at entry (0, 0), zero elsewhere. -/
theorem out_eq (c : Dev nD) : ∀ (n : ℕ) (h : n < cfg0.N), n % 8 = 7 → ∀ (r : Fin 8) (l : Fin 128),
    (outsAt0 m c n h).1 (ix2 r l) = if r.val = 0 ∧ l.val = 0 then accAt m c n h * kk else 0
  | 0, h, h7 => by omega
  | n + 1, h, h7 => by
    intro r l
    have h0 : ¬ (n + 1) % 8 = 0 := by omega
    rw [outsAt0_C m c ⟨n + 1, h⟩ h0 h7]
    dsimp only
    rw [Pieces.out_C, Pay.pay3_apply, Pay.pay2_apply]
    show (if r.val = 0 ∧ l.val = 0 then ((outsAt0 m c n _).2 (ix2 0 0) + _) * _ else 0) = _
    rw [scr_eq m c n, accAt, if_neg h0]
    rfl

/-- The 16 x 128 output array after the run: rows 0 and 8 carry, in column 0, the two scaled partial sums. -/
def outArr (c : Dev nD) : S16x128.Idx → EReal := fun i =>
  if (i 0).val % 8 = 0 ∧ (i 1).val = 0 then
    accAt m c (8 * ((i 0).val / 8) + 7) (by have := idx2_lt0 i; rw [show cfg0.N = 16 from N_0]; omega) * kk
  else 0

/-- Where the output window's block sits at each grid step: block row `t / 8`, block column 0. -/
theorem idx_out : ∀ t : Fin cfg0.N, win0_5.index t (0 : Fin 2) = t.val / 8 ∧ win0_5.index t (1 : Fin 2) = 0 :=
  (by decide +kernel : ∀ t : Fin grid0.N, _)

/-- What a last step writes back is its block of `outArr`. -/
theorem flushed_eq (c : Dev nD) (t : Fin cfg0.N) (hf : (cfg0.win 5).flush t = true) :
    (dats m 0 c).flushed 5 t = ((cfg0.win 5).blk t).view.read (Elt Ideal) (outArr m c) := by
  have h7 : t.val % 8 = 7 := (flush0_5 t).mp hf
  have hN : cfg0.N = 16 := N_0
  have hlt : t.val < 16 := hN ▸ t.isLt
  show (cfg0.win 5).cut (grid0.coords t) ((dats m 0 c).after 5 t) = _
  rw [after0_5]
  funext j
  show (outsAt0 m c t.val t.isLt).1 j = outArr m c (((cfg0.win 5).blk t).view.emb j)
  have hj0 : (j 0).val < 8 := (j 0).isLt
  have hj1 : (j 1).val < 128 := (j 1).isLt
  obtain ⟨r, l, rfl⟩ : ∃ (r : Fin 8) (l : Fin 128), j = (ix2 r l : S8x128.Idx) :=
    ⟨⟨(j 0).val, hj0⟩, ⟨(j 1).val, hj1⟩, by funext a; match a with | ⟨0, _⟩ => rfl | ⟨1, _⟩ => rfl⟩
  rw [out_eq m c t.val t.isLt h7 r l]
  obtain ⟨i0, i1⟩ := idx_out t
  have e0 : ((((cfg0.win 5).blk t).view.emb (ix2 r l : S8x128.Idx)) 0).val = win0_5.index t (0 : Fin 2) * 8 + 1 * r.val := rfl
  have e1 : ((((cfg0.win 5).blk t).view.emb (ix2 r l : S8x128.Idx)) 1).val = win0_5.index t (1 : Fin 2) * 128 + 1 * l.val := rfl
  unfold outArr
  have hr : r.val < 8 := r.isLt
  refine if_congr ?_ ?_ rfl
  · rw [e0, e1, i0, i1]; constructor
    · rintro ⟨a, b⟩; constructor <;> omega
    · rintro ⟨a, b⟩; constructor <;> omega
  · congr 1
    apply accAt_congr
    rw [e0, i0]; omega

/-- An index of the output array is in a step's block iff each coordinate is in the block's range. -/
theorem mem_blk (t : Fin cfg0.N) (i : S16x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v42).slice (win0_5.rect t)).set ↔ _
  rw [View.set_slice_whole, Rect.mem_set_unit]
  exact Iff.rfl

/-- The two write-backs cover the output array, so it ends holding `outArr`. -/
theorem final (c : Dev nD) : (dats m 0 c).arrAt 5 cfg0.N = outArr m c :=
  (dats m 0 c).arrAt_eq_of_cover 5 (outArr m c) (flushed_eq m c) fun i => by
    have hN : cfg0.N = 16 := N_0
    have h0 : (i 0).val < 16 := idx2_lt0 i
    have h1 : (i 1).val < 128 := idx2_lt1 i
    refine ⟨⟨8 * ((i 0).val / 8) + 7, by rw [hN]; omega⟩, (flush0_5 _).mpr (by show (8 * ((i 0).val / 8) + 7) % 8 = 7; omega), ?_⟩
    rw [mem_blk]
    obtain ⟨i0, i1⟩ := idx_out ⟨8 * ((i 0).val / 8) + 7, by rw [hN]; omega⟩
    intro a
    match a with
    | ⟨0, _⟩ =>
      show win0_5.index _ (0 : Fin 2) * 8 ≤ (i 0).val ∧ (i 0).val < win0_5.index _ (0 : Fin 2) * 8 + 8
      rw [i0]; dsimp only; omega
    | ⟨1, _⟩ =>
      show win0_5.index _ (1 : Fin 2) * 128 ≤ (i 1).val ∧ (i 1).val < win0_5.index _ (1 : Fin 2) * 128 + 128
      rw [i1]; omega

/-! ## The blocks are rows of the arrays the launch finds -/

/-- Where each operand window's block sits at grid step `t`: block row `t` for the four batch-tiled operands, the
    whole matrix for the weights. -/
theorem idx_in : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Grid step `t` as a block number. -/
def gOf (t : Fin cfg0.N) : Fin 16 := ⟨t.val, (show cfg0.N = 16 from N_0) ▸ t.isLt⟩

open Cert.Residual in
theorem blk0_apply (c : Dev nD) (t : Fin cfg0.N) (p : Fin 256) (j : Fin 2048) :
    blk0 m c t (ix2 p j) = V m c main_arg0 (ix2 (brow (gOf t) p) j) := by
  obtain ⟨e0, e1, -⟩ := idx_in t
  show V m c main_arg0 (((cfg0.win 0).blk t).view.emb (ix2 p j : S256x2048.Idx)) = _
  congr 1
  funext a; apply Fin.ext
  match a with
  | ⟨0, _⟩ => show win0_0.index t (0 : Fin 2) * 256 + 1 * p.val = 256 * t.val + p.val; rw [e0]; omega
  | ⟨1, _⟩ => show win0_0.index t (1 : Fin 2) * 2048 + 1 * j.val = j.val; rw [e1]; omega

open Cert.Residual in
theorem blk1_apply (c : Dev nD) (t : Fin cfg0.N) (p : Fin 256) (j : Fin 2048) :
    blk1 m c t (ix2 p j) = V m c main_arg1 (ix2 (brow (gOf t) p) j) := by
  obtain ⟨-, -, e0, e1, -⟩ := idx_in t
  show V m c main_arg1 (((cfg0.win 1).blk t).view.emb (ix2 p j : S256x2048.Idx)) = _
  congr 1
  funext a; apply Fin.ext
  match a with
  | ⟨0, _⟩ => show win0_1.index t (0 : Fin 2) * 256 + 1 * p.val = 256 * t.val + p.val; rw [e0]; omega
  | ⟨1, _⟩ => show win0_1.index t (1 : Fin 2) * 2048 + 1 * j.val = j.val; rw [e1]; omega

theorem blk2_apply (c : Dev nD) (t : Fin cfg0.N) (j col : Fin 2048) :
    blk2 m c t (ix2 j col) = V m c main_v39 (ix2 j col) := by
  obtain ⟨-, -, -, -, e0, e1, -⟩ := idx_in t
  show V m c main_v39 (((cfg0.win 2).blk t).view.emb (ix2 j col : S2048x2048.Idx)) = _
  congr 1
  funext a; apply Fin.ext
  match a with
  | ⟨0, _⟩ => show win0_2.index t (0 : Fin 2) * 2048 + 1 * j.val = j.val; rw [e0]; omega
  | ⟨1, _⟩ => show win0_2.index t (1 : Fin 2) * 2048 + 1 * col.val = col.val; rw [e1]; omega

open Cert.Residual in
theorem blk3_apply (c : Dev nD) (t : Fin cfg0.N) (p : Fin 256) (j : Fin 2048) :
    blk3 m c t (ix2 p j) = V m c main_v40 (ix2 (brow (gOf t) p) j) := by
  obtain ⟨-, -, -, -, -, -, e0, e1, -⟩ := idx_in t
  show V m c main_v40 (((cfg0.win 3).blk t).view.emb (ix2 p j : S256x2048.Idx)) = _
  congr 1
  funext a; apply Fin.ext
  match a with
  | ⟨0, _⟩ => show win0_3.index t (0 : Fin 2) * 256 + 1 * p.val = 256 * t.val + p.val; rw [e0]; omega
  | ⟨1, _⟩ => show win0_3.index t (1 : Fin 2) * 2048 + 1 * j.val = j.val; rw [e1]; omega

open Cert.Residual in
theorem blk4_apply (c : Dev nD) (t : Fin cfg0.N) (p : Fin 256) (j : Fin 2048) :
    blk4 m c t (ix2 p j) = V m c main_v41 (ix2 (brow (gOf t) p) j) := by
  obtain ⟨-, -, -, -, -, -, -, -, e0, e1⟩ := idx_in t
  show V m c main_v41 (((cfg0.win 4).blk t).view.emb (ix2 p j : S256x2048.Idx)) = _
  congr 1
  funext a; apply Fin.ext
  match a with
  | ⟨0, _⟩ => show win0_4.index t (0 : Fin 2) * 256 + 1 * p.val = 256 * t.val + p.val; rw [e0]; omega
  | ⟨1, _⟩ => show win0_4.index t (1 : Fin 2) * 2048 + 1 * j.val = j.val; rw [e1]; omega

section
open Cert.Residual

/-- The arrays the launch finds, as plain families. -/
abbrev fEA (c : Dev nD) : Fin 4096 → Fin 2048 → EReal := fun b j => V m c main_arg0 (ix2 b j)
abbrev fE (c : Dev nD) : Fin 4096 → Fin 2048 → EReal := fun b j => V m c main_arg1 (ix2 b j)
abbrev fM (c : Dev nD) : Fin 2048 → Fin 2048 → EReal := fun j col => V m c main_v39 (ix2 j col)
abbrev fQ (c : Dev nD) : Fin 4096 → Fin 2048 → EReal := fun b col => V m c main_v40 (ix2 b col)
abbrev fR (c : Dev nD) : Fin 4096 → Fin 2048 → EReal := fun b col => V m c main_v41 (ix2 b col)

/-- A grid step's contribution is its block's sum of squared residuals of those arrays. -/
theorem bs_eq (c : Dev nD) (n : ℕ) (h : n < cfg0.N) :
    bs m c n h = kblock (fEA m c) (fE m c) (fM m c) (fQ m c) (fR m c) (gOf ⟨n, h⟩) := by
  unfold bs Pay.bsum kblock kres
  refine Finset.sum_congr rfl fun p _ => Finset.sum_congr rfl fun col _ => ?_
  simp only [blk0_apply, blk1_apply, blk2_apply, blk3_apply, blk4_apply]

end

/-! ## The two partial sums and the value of the run -/

section
open Cert.Residual

theorem accAt_zero (c : Dev nD) (h : 0 < cfg0.N) : accAt m c 0 h = 0 + bs m c 0 h := rfl

theorem accAt_succ_of_ne (c : Dev nD) (n : ℕ) (h : n + 1 < cfg0.N) (h0 : ¬ (n + 1) % 8 = 0) :
    accAt m c (n + 1) h = accAt m c n (Nat.lt_of_succ_lt h) + bs m c (n + 1) h := by
  rw [accAt, if_neg h0]

theorem accAt_succ_of_eq (c : Dev nD) (n : ℕ) (h : n + 1 < cfg0.N) (h0 : (n + 1) % 8 = 0) :
    accAt m c (n + 1) h = 0 + bs m c (n + 1) h := by
  rw [accAt, if_pos h0]

/-- After step 7 the running scalar is the first partial sum: blocks 0 to 7. -/
theorem acc7 (c : Dev nD) (h : 7 < cfg0.N) :
    accAt m c 7 h = kcore (fEA m c) (fE m c) (fM m c) (fQ m c) (fR m c) 0 := by
  rw [accAt_succ_of_ne m c 6 h (by decide), accAt_succ_of_ne m c 5 _ (by decide), accAt_succ_of_ne m c 4 _ (by decide),
    accAt_succ_of_ne m c 3 _ (by decide), accAt_succ_of_ne m c 2 _ (by decide), accAt_succ_of_ne m c 1 _ (by decide),
    accAt_succ_of_ne m c 0 _ (by decide), accAt_zero]
  simp only [bs_eq, zero_add]
  unfold kcore
  rw [Fin.sum_univ_eight]
  rfl

/-- After step 15 the running scalar is the second partial sum: blocks 8 to 15 (the scalar was reset at step 8). -/
theorem acc15 (c : Dev nD) (h : 15 < cfg0.N) :
    accAt m c 15 h = kcore (fEA m c) (fE m c) (fM m c) (fQ m c) (fR m c) 1 := by
  rw [accAt_succ_of_ne m c 14 h (by decide), accAt_succ_of_ne m c 13 _ (by decide), accAt_succ_of_ne m c 12 _ (by decide),
    accAt_succ_of_ne m c 11 _ (by decide), accAt_succ_of_ne m c 10 _ (by decide), accAt_succ_of_ne m c 9 _ (by decide),
    accAt_succ_of_ne m c 8 _ (by decide), accAt_succ_of_eq m c 7 _ (by decide)]
  simp only [bs_eq, zero_add]
  unfold kcore
  rw [Fin.sum_univ_eight]
  rfl

/-- The sum of every entry of the output array: the two scaled partial sums. -/
theorem sum_out (c : Dev nD) :
    ∑ i : S16x128.Idx, outArr m c i = kval (fEA m c) (fE m c) (fM m c) (fQ m c) (fR m c) kk := by
  have hN : cfg0.N = 16 := N_0
  rw [Cert.TailSum.sum_two_cells
    (fun R => accAt m c (8 * (R.val / 8) + 7) (by have := R.isLt; rw [hN]; omega) * kk) (outArr m c) (fun R l => rfl)]
  unfold kval
  rw [← acc7 m c (by rw [hN]; decide), ← acc15 m c (by rw [hN]; decide)]
  rfl

/-- The program's result: the host's sum of the output array is the dense form of the arrays the launch finds. -/
theorem result_eq (c : Dev nD) :
    Pipeline.afterTail₀ cfgs (dats m) 0 (V0 m) [hostOps1] c main_v43
      = fun _ => kval (fEA m c) (fE m c) (fM m c) (fQ m c) (fR m c) kk := by
  have e : Tail.outArr m c = outArr m c := final m c
  rw [Tail.tail_eq m c, e]
  funext _
  rw [sum_out, Ideal.ofBits_zero_f32, zero_add]

/-- The run, read: the result at the dense form, the arguments unchanged. -/
theorem run : θ_run defs (onTc (τ := τ) (main (F := Ideal))) ⟨m, fun _ => 0, ρ⟩ (fun r => ∀ c : Dev nD,
      r.2.mem ((c.tc : Thread nD τ).loc main_v43) = (fun _ => kval (fEA m c) (fE m c) (fM m c) (fQ m c) (fR m c) kk)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v43 (Pipeline.mem_restRefs_of main_v43 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end

end Cert.KernelIdeal.KValue

end
-- ==== Proof.LibScatterPairs.lean ====
import Idealize.ShloMosaic.PureOps.ShapeOps
import Idealize.ShloMosaic.Lib.ValueIdx

/-! # A scatter of scalars into a matrix, one (row, column) pair of index words per update

The operand has shape [R, C]; the scatter indices have shape [K, 2], the pair on the last axis (component 0 names the operand's
row, component 1 its column); the updates have shape [K]; both operand axes are inserted window axes and there is no window
axis. This is what `x.at[rows, cols].set(v)` (or `.add`, `.min`, …) prints as when `rows` and `cols` are vectors of length K.

Update `k` lands on the cell `(r, b)` exactly when its pair of index words, read as signed integers, is `(r, b)`
(`resultIdx?_eq_some_iff`); an update whose pair names no cell is dropped. -/

namespace Idealize.ShloMosaic.ScatterPairs

open Idealize.ShloMosaic Idealize.ShloMosaic.ValueIdx

variable {R C K w : Nat}

/-- Update `k` reads component `c` of its pair at `(k, c)` of the scatter indices. -/
theorem siIdx_eq (d : ScatterDims ⟨2, ![R, C]⟩ ⟨2, ![K, 2]⟩ ⟨1, ![K]⟩)
    (huw : d.updateWindowDims = []) (hsd : d.scatterDimsToOperandDims = [0, 1]) (hiv : d.indexVectorDim = 1)
    (k : Fin K) (c : Fin d.scatterDimsToOperandDims.length) (c' : Fin 2) (hc : c.val = c'.val) :
    d.siIdx (ix1 k) c = ix2 k c' := by
  obtain ⟨uw, iw, sd, iv, wf⟩ := d
  simp only at huw hsd hiv
  subst huw hsd hiv
  funext b
  match b with
  | ⟨0, _⟩ => rfl
  | ⟨1, _⟩ => exact Fin.ext hc

/-- The start on the operand's row axis is component 0 of the pair, read signed. -/
theorem start_eq0 (d : ScatterDims ⟨2, ![R, C]⟩ ⟨2, ![K, 2]⟩ ⟨1, ![K]⟩)
    (huw : d.updateWindowDims = []) (hsd : d.scatterDimsToOperandDims = [0, 1]) (hiv : d.indexVectorDim = 1)
    (idx : IVec ⟨2, ![K, 2]⟩ w) (k : Fin K) :
    d.start (ix1 k) idx 0 = (idx (ix2 k (0 : Fin 2))).toInt := by
  have ha : (0 : Fin 2) ∈ d.scatterDimsToOperandDims := by rw [hsd]; simp
  unfold ScatterDims.start
  rw [dif_pos ha, siIdx_eq d huw hsd hiv k _ 0 (by simp [hsd])]

/-- The start on the operand's column axis is component 1 of the pair, read signed. -/
theorem start_eq1 (d : ScatterDims ⟨2, ![R, C]⟩ ⟨2, ![K, 2]⟩ ⟨1, ![K]⟩)
    (huw : d.updateWindowDims = []) (hsd : d.scatterDimsToOperandDims = [0, 1]) (hiv : d.indexVectorDim = 1)
    (idx : IVec ⟨2, ![K, 2]⟩ w) (k : Fin K) :
    d.start (ix1 k) idx 1 = (idx (ix2 k (1 : Fin 2))).toInt := by
  have ha : (1 : Fin 2) ∈ d.scatterDimsToOperandDims := by rw [hsd]; simp
  unfold ScatterDims.start
  rw [dif_pos ha, siIdx_eq d huw hsd hiv k _ 1 (by simp [hsd])]

/-- There is no window: both operand axes are inserted. -/
theorem window_eq (d : ScatterDims ⟨2, ![R, C]⟩ ⟨2, ![K, 2]⟩ ⟨1, ![K]⟩)
    (hiw : d.insertedWindowDims = [0, 1]) (j : (⟨1, ![K]⟩ : Shape).Idx) (a : Fin 2) : d.window j a = 0 := by
  unfold ScatterDims.window
  rw [dif_neg]
  simp only [ScatterDims.sKept, Shape.kept, hiw]
  fin_cases a <;> simp

/-- Update `k` lands on the cell `(r, b)` exactly when the two words of its pair, read signed, are `r` and `b`. -/
theorem resultIdx?_eq_some_iff (d : ScatterDims ⟨2, ![R, C]⟩ ⟨2, ![K, 2]⟩ ⟨1, ![K]⟩)
    (huw : d.updateWindowDims = []) (hiw : d.insertedWindowDims = [0, 1])
    (hsd : d.scatterDimsToOperandDims = [0, 1]) (hiv : d.indexVectorDim = 1)
    (idx : IVec ⟨2, ![K, 2]⟩ w) (k : Fin K) (r : Fin R) (b : Fin C) :
    d.resultIdx? (ix1 k) idx = some (ix2 r b) ↔
      (idx (ix2 k (0 : Fin 2))).toInt = (r.val : Int) ∧ (idx (ix2 k (1 : Fin 2))).toInt = (b.val : Int) := by
  have s0 := start_eq0 d huw hsd hiv idx k
  have s1 := start_eq1 d huw hsd hiv idx k
  unfold ScatterDims.resultIdx?
  constructor
  · intro h
    split at h
    · rename_i hh
      have h0 := congrArg Fin.val (congrFun (Option.some.inj h) 0)
      have h1 := congrArg Fin.val (congrFun (Option.some.inj h) 1)
      have g0 := (hh 0).1
      have g1 := (hh 1).1
      simp only [window_eq d hiw, Nat.cast_zero, add_zero] at h0 h1 g0 g1
      rw [s0] at h0 g0
      rw [s1] at h1 g1
      have e0 : (idx (ix2 k (0 : Fin 2))).toInt.toNat = r.val := h0
      have e1 : (idx (ix2 k (1 : Fin 2))).toInt.toNat = b.val := h1
      constructor <;> omega
    · exact absurd h (by simp)
  · rintro ⟨h0, h1⟩
    have hR : ∀ h, ((⟨2, ![R, C]⟩ : Shape).size ⟨0, h⟩ : Int) = R := fun _ => rfl
    have hC : ∀ h, ((⟨2, ![R, C]⟩ : Shape).size ⟨1, h⟩ : Int) = C := fun _ => rfl
    have hall : ∀ a : Fin 2, 0 ≤ d.start (ix1 k) idx a + (d.window (ix1 k) a : Int) ∧
        d.start (ix1 k) idx a + (d.window (ix1 k) a : Int) < (⟨2, ![R, C]⟩ : Shape).size a := by
      intro a
      rw [window_eq d hiw]
      match a with
      | ⟨0, _⟩ =>
        rw [show d.start (ix1 k) idx ⟨0, by omega⟩ = _ from s0, h0, hR]
        have := r.isLt
        constructor <;> omega
      | ⟨1, _⟩ =>
        rw [show d.start (ix1 k) idx ⟨1, by omega⟩ = _ from s1, h1, hC]
        have := b.isLt
        constructor <;> omega
    rw [dif_pos hall]
    congr 1
    funext a
    apply Fin.ext
    simp only [window_eq d hiw, Nat.cast_zero, add_zero]
    match a with
    | ⟨0, _⟩ =>
      show (d.start (ix1 k) idx 0).toNat = r.val
      rw [s0, h0]; omega
    | ⟨1, _⟩ =>
      show (d.start (ix1 k) idx 1).toNat = b.val
      rw [s1, h1]; omega

end Idealize.ShloMosaic.ScatterPairs
-- ==== Proof.KernelHost.lean ====
import proofs.«430668_j15814069584181_3_alg».proof.Proof.Gen.KernelIdeal.Frame
import proofs.«430668_j15814069584181_3_alg».proof.Proof.Spec
import proofs.«430668_j15814069584181_3_alg».proof.Proof.LibScatterPairs
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.Lib.StableHlo.Predicate

/-! # What the host lines before the launch compute

Before the launch the program adds the incidence vectors into a dense weight matrix (two accumulating scatters, one per
channel, at the cells (element id, 2 * node id) and (element id, 2 * node id + 1)) and flattens the loads and the reactions
from (batch, node, channel) to (batch, 2 * node + channel). -/

open scoped BigOperators

noncomputable section

namespace Cert.KernelIdeal.HostValue

open Cert.KernelIdeal Cert.KernelIdeal.Gen
open Idealize.ShloMosaic Idealize.ShloMosaic.TcCoe Idealize.ShloMosaic.ValueIdx Idealize.SL.Sem Cert.Residual

/-! ## Words: an id in range is not negative, so the negative-index correction leaves it -/

/-- A word whose signed reading is a natural number reads that number unsigned. -/
theorem toNat_of_toInt {e : BitVec 32} {n : Nat} (h : e.toInt = (n : Int)) : e.toNat = n := by
  have := e.isLt
  rw [BitVec.toInt_eq_toNat_cond] at h
  split at h <;> omega

/-- The correction "add 2048 if negative" leaves a word whose signed reading is a natural number. -/
theorem wrap_id (e : BitVec 32) (n : Nat) (h : e.toInt = (n : Int)) :
    Scalar.select (IntOp.cmpi .slt e 0#32) (IntOp.addi e 2048#32) e = e := by
  have hc : IntOp.cmpi .slt e 0#32 = 0#1 := by
    apply eq_zero_of_ne_one
    intro hc
    unfold IntOp.cmpi at hc
    rw [StableHlo.Predicate.ofBool_eq_one_iff] at hc
    simp only [BitVec.slt, decide_eq_true_eq, BitVec.toInt_zero] at hc
    omega
  rw [hc, select_zero]

/-- Twice a node id below 1024 does not wrap. -/
theorem twice_toInt {e : BitVec 32} {n : Nat} (hn : n < 1024) (h : e.toInt = (n : Int)) :
    (IntOp.muli 2#32 e).toInt = ((2 * n : Nat) : Int) := by
  have hN := toNat_of_toInt h
  have h2 : (IntOp.muli 2#32 e).toNat = 2 * n := by
    show (2#32 * e).toNat = _
    rw [BitVec.toNat_mul, hN]
    show 2 * n % 4294967296 = 2 * n
    omega
  rw [StableHlo.Predicate.toInt_eq_toNat_of_lt (by omega), h2]

/-- Twice a node id below 1024, plus one, does not wrap. -/
theorem twice_succ_toInt {e : BitVec 32} {n : Nat} (hn : n < 1024) (h : e.toInt = (n : Int)) :
    (IntOp.addi (IntOp.muli 2#32 e) 1#32).toInt = ((2 * n + 1 : Nat) : Int) := by
  have hN := toNat_of_toInt h
  have h2 : (IntOp.addi (IntOp.muli 2#32 e) 1#32).toNat = 2 * n + 1 := by
    show (2#32 * e + 1#32).toNat = _
    rw [BitVec.toNat_add, BitVec.toNat_mul, hN]
    show (2 * n % 4294967296 + 1) % 4294967296 = 2 * n + 1
    omega
  rw [StableHlo.Predicate.toInt_eq_toNat_of_lt (by omega), h2]

/-! ## Layout: the pair array, the update vectors, the zero matrix -/

section Layout
variable {α : Type}

/-- A vector as a one-column matrix reads, at (k, 0), the vector at k. -/
theorem col_read (h : S4096.BroadcastsInDim S4096x1 (![0] : Fin 1 → Fin S4096x1.rank)) (v : S4096.Idx → α) (k : Fin 4096) :
    broadcastInDim S4096x1 ![0] h v (ix2 k (0 : Fin 1)) = v (ix1 k) := by
  refine broadcastInDim_apply _ h v _ (ix1 k) fun a => ?_
  match a with
  | ⟨0, _⟩ => exact (if_neg (by decide : ¬ (4096 : Nat) = 1)).symm

/-- Two columns side by side read, at (k, 0), the first column … -/
theorem pair_read0 (h : S4096.BroadcastsInDim S4096x1 (![0] : Fin 1 → Fin S4096x1.rank))
    (hc : Shape.Concatenates [S4096x1, S4096x1] S4096x2 1) (a b : S4096.Idx → α) (k : Fin 4096) :
    concatenate S4096x2 1 [⟨S4096x1, broadcastInDim S4096x1 ![0] h a⟩, ⟨S4096x1, broadcastInDim S4096x1 ![0] h b⟩] hc
      (ix2 k (0 : Fin 2)) = a (ix1 k) := by
  rw [concatenate_pair_apply_left (s₁ := S4096x1) (s₂ := S4096x1) (1 : Fin 2) _ _ hc (ix2 k (0 : Fin 2)) rfl
    (ix2 k (0 : Fin 1)) (fun b => by
    match b with
    | ⟨0, _⟩ => rfl
    | ⟨1, _⟩ => rfl)]
  exact col_read h a k

/-- … and at (k, 1) the second. -/
theorem pair_read1 (h : S4096.BroadcastsInDim S4096x1 (![0] : Fin 1 → Fin S4096x1.rank))
    (hc : Shape.Concatenates [S4096x1, S4096x1] S4096x2 1) (a b : S4096.Idx → α) (k : Fin 4096) :
    concatenate S4096x2 1 [⟨S4096x1, broadcastInDim S4096x1 ![0] h a⟩, ⟨S4096x1, broadcastInDim S4096x1 ![0] h b⟩] hc
      (ix2 k (1 : Fin 2)) = b (ix1 k) := by
  rw [concatenate_pair_apply_right (s₁ := S4096x1) (s₂ := S4096x1) (1 : Fin 2) _ _ hc (ix2 k (1 : Fin 2)) rfl rfl
    (ix2 k (0 : Fin 1)) (fun b hb => by
    match b with
    | ⟨0, _⟩ => rfl
    | ⟨1, _⟩ => exact absurd rfl hb) rfl]
  exact col_read h b k

/-- Column c of the incidence vectors, flattened to a vector, reads at k the entry (k, c). -/
theorem chan_read (c : Fin 2) (off : Fin 2 → Nat) (hoff : off = ![0, c.val]) (hs : S4096x2.Slices off S4096x1)
    (hr : S4096x1.ShapeCasts S4096) (x : S4096x2.Idx → α) (k : Fin 4096) :
    shapeCast S4096 (extractStridedSlice S4096x1 off x hs) hr (ix1 k) = x (ix2 k c) := by
  subst hoff
  rw [shapeCast_apply _ hr (ix1 k) (ix2 k (0 : Fin 1)) (by
    rw [Shape.rowMajor_val_two, Shape.rowMajor_val_one]
    show k.val * 1 + 0 = k.val
    omega)]
  refine extractStridedSlice_apply _ x hs _ (ix2 k c) fun a => ?_
  match a with
  | ⟨0, _⟩ => show k.val = 0 + k.val; omega
  | ⟨1, _⟩ => show c.val = c.val + 0; omega

end Layout

/-! ## An accumulating scatter of scalars read at a cell -/

/-- Each cell of the result is the operand's cell plus the updates whose pair of index words, read signed, names it. -/
theorem scatterAdd_pairs_apply {R C K w : Nat} (d : ScatterDims ⟨2, ![R, C]⟩ ⟨2, ![K, 2]⟩ ⟨1, ![K]⟩)
    (huw : d.updateWindowDims = []) (hiw : d.insertedWindowDims = [0, 1])
    (hsd : d.scatterDimsToOperandDims = [0, 1]) (hiv : d.indexVectorDim = 1)
    (x : (⟨2, ![R, C]⟩ : Shape).Idx → EReal) (idx : IVec ⟨2, ![K, 2]⟩ w) (upd : (⟨1, ![K]⟩ : Shape).Idx → EReal)
    (r : Fin R) (b : Fin C) :
    Ideal.hostScatterAdd d x idx upd (ix2 r b)
      = x (ix2 r b) + ∑ k ∈ Finset.univ.filter (fun k : Fin K =>
          (idx (ix2 k (0 : Fin 2))).toInt = (r.val : Int) ∧ (idx (ix2 k (1 : Fin 2))).toInt = (b.val : Int)), upd (ix1 k) := by
  unfold Ideal.hostScatterAdd
  congr 1
  refine Finset.sum_bij' (fun j _ => (j 0 : Fin K)) (fun k _ => ix1 k) ?_ ?_ ?_ ?_ ?_
  · intro j hj
    have h2 : d.resultIdx? (ix1 (j 0)) idx = some (ix2 r b) :=
      (congrArg (fun j' => d.resultIdx? j' idx) (eq_ix1 j)).symm.trans (Finset.mem_filter.mp hj).2
    exact Finset.mem_filter.mpr ⟨Finset.mem_univ _,
      (ScatterPairs.resultIdx?_eq_some_iff d huw hiw hsd hiv idx (j 0) r b).mp h2⟩
  · intro k hk
    exact Finset.mem_filter.mpr ⟨Finset.mem_univ _,
      (ScatterPairs.resultIdx?_eq_some_iff d huw hiw hsd hiv idx k r b).mpr (Finset.mem_filter.mp hk).2⟩
  · intro j _
    exact (eq_ix1 j).symm
  · intro k _
    rfl
  · intro j _
    exact congrArg upd (eq_ix1 j)

/-! ## The host lines' weight matrix, over variables -/

section Weights

/-- The negative-index correction on a vector of words: 2048 is added where the word is negative. -/
def fixw (h0 : S_.BroadcastsInDim S4096 (![] : Fin 0 → Fin S4096.rank)) (x : IVec S4096 32) : IVec S4096 32 :=
  select (cmpi .slt x (broadcastInDim S4096 ![] h0 (constantI S_ 32 0#32)))
    (addi x (broadcastInDim S4096 ![] h0 (constantI S_ 32 2048#32))) x

/-- Twice the node ids … -/
def twice (h0 : S_.BroadcastsInDim S4096 (![] : Fin 0 → Fin S4096.rank)) (node : IVec S4096 32) : IVec S4096 32 :=
  muli (broadcastInDim S4096 ![] h0 (constantI S_ 32 2#32)) node

/-- … and twice the node ids plus one. -/
def twiceSucc (h0 : S_.BroadcastsInDim S4096 (![] : Fin 0 → Fin S4096.rank)) (node : IVec S4096 32) : IVec S4096 32 :=
  addi (twice h0 node) (broadcastInDim S4096 ![] h0 (constantI S_ 32 1#32))

/-- Two vectors of words as the two columns of the pair array. -/
def pairs (h1 : S4096.BroadcastsInDim S4096x1 (![0] : Fin 1 → Fin S4096x1.rank))
    (hc : Shape.Concatenates [S4096x1, S4096x1] S4096x2 1) (a b : IVec S4096 32) : IVec S4096x2 32 :=
  concatenate S4096x2 1 [⟨S4096x1, broadcastInDim S4096x1 ![0] h1 a⟩, ⟨S4096x1, broadcastInDim S4096x1 ![0] h1 b⟩] hc

variable (h0 : S_.BroadcastsInDim S4096 (![] : Fin 0 → Fin S4096.rank))
  (h1 : S4096.BroadcastsInDim S4096x1 (![0] : Fin 1 → Fin S4096x1.rank))
  (hc : Shape.Concatenates [S4096x1, S4096x1] S4096x2 1)

/-- The correction leaves a word whose signed reading is a natural number. -/
theorem fixw_read (x : IVec S4096 32) (k : Fin 4096) (n : Nat) (hx : (x (ix1 k)).toInt = (n : Int)) :
    fixw h0 x (ix1 k) = x (ix1 k) := by
  show Scalar.select (IntOp.cmpi .slt (x (ix1 k)) (broadcastInDim S4096 ![] h0 (constantI S_ 32 0#32) (ix1 k)))
    (IntOp.addi (x (ix1 k)) (broadcastInDim S4096 ![] h0 (constantI S_ 32 2048#32) (ix1 k))) (x (ix1 k)) = _
  rw [broadcastInDim_scalar_apply, broadcastInDim_scalar_apply]
  exact wrap_id _ n hx

theorem twice_read (node : IVec S4096 32) (k : Fin 4096) : twice h0 node (ix1 k) = IntOp.muli 2#32 (node (ix1 k)) := by
  show IntOp.muli (broadcastInDim S4096 ![] h0 (constantI S_ 32 2#32) (ix1 k)) (node (ix1 k)) = _
  rw [broadcastInDim_scalar_apply]
  rfl

theorem twiceSucc_read (node : IVec S4096 32) (k : Fin 4096) :
    twiceSucc h0 node (ix1 k) = IntOp.addi (IntOp.muli 2#32 (node (ix1 k))) 1#32 := by
  show IntOp.addi (twice h0 node (ix1 k)) (broadcastInDim S4096 ![] h0 (constantI S_ 32 1#32) (ix1 k)) = _
  rw [broadcastInDim_scalar_apply, twice_read]
  rfl

variable (node elem : IVec S4096 32) (nd : Fin 4096 → Fin 1024) (el : Fin 4096 → Fin 2048)
  (hnd : ∀ k : Fin 4096, (node (ix1 k)).toInt = ((nd k).val : Int))
  (hel : ∀ k : Fin 4096, (elem (ix1 k)).toInt = ((el k).val : Int))
include hnd hel

/-- Entry k's pair (element id, twice its node id) names the cell (j, col) iff el k = j and 2 * nd k = col. -/
theorem cond0 (j col : Fin 2048) (k : Fin 4096) :
    ((pairs h1 hc (fixw h0 elem) (fixw h0 (twice h0 node)) (ix2 k (0 : Fin 2))).toInt = (j.val : Int)
      ∧ (pairs h1 hc (fixw h0 elem) (fixw h0 (twice h0 node)) (ix2 k (1 : Fin 2))).toInt = (col.val : Int))
      ↔ (el k = j ∧ 2 * (nd k).val = col.val) := by
  have t := twice_toInt (nd k).isLt (hnd k)
  have e1 : fixw h0 (twice h0 node) (ix1 k) = IntOp.muli 2#32 (node (ix1 k)) := by
    rw [fixw_read h0 _ k (2 * (nd k).val) (by rw [twice_read]; exact t), twice_read]
  unfold pairs
  rw [pair_read0, pair_read1, fixw_read h0 elem k _ (hel k), e1, hel k, t]
  constructor
  · rintro ⟨a, b⟩
    exact ⟨Fin.ext (by omega), by omega⟩
  · rintro ⟨a, b⟩
    subst a
    exact ⟨rfl, by omega⟩

/-- Entry k's pair (element id, twice its node id plus one) names the cell (j, col) iff el k = j and 2 * nd k + 1 = col. -/
theorem cond1 (j col : Fin 2048) (k : Fin 4096) :
    ((pairs h1 hc (fixw h0 elem) (fixw h0 (twiceSucc h0 node)) (ix2 k (0 : Fin 2))).toInt = (j.val : Int)
      ∧ (pairs h1 hc (fixw h0 elem) (fixw h0 (twiceSucc h0 node)) (ix2 k (1 : Fin 2))).toInt = (col.val : Int))
      ↔ (el k = j ∧ 2 * (nd k).val + 1 = col.val) := by
  have t := twice_succ_toInt (nd k).isLt (hnd k)
  have e1 : fixw h0 (twiceSucc h0 node) (ix1 k) = IntOp.addi (IntOp.muli 2#32 (node (ix1 k))) 1#32 := by
    rw [fixw_read h0 _ k (2 * (nd k).val + 1) (by rw [twiceSucc_read]; exact t), twiceSucc_read]
  unfold pairs
  rw [pair_read0, pair_read1, fixw_read h0 elem k _ (hel k), e1, hel k, t]
  constructor
  · rintro ⟨a, b⟩
    exact ⟨Fin.ext (by omega), by omega⟩
  · rintro ⟨a, b⟩
    subst a
    exact ⟨rfl, by omega⟩

end Weights

/-! ## The weight matrix the launch finds -/

/-- At the extended reals the host's accumulating scatter is the exact sum. -/
theorem hostScatterAdd_eq {s si u : Shape} {w : Nat} {φ : FTy} (d : ScatterDims s si u) (x : FVec Ideal s φ)
    (idx : IVec si w) (upd : FVec Ideal u φ) :
    Host.scatterAdd (F := Ideal) d x idx upd = Ideal.hostScatterAdd d x idx upd := rfl

/-- The weight matrix as the host lines compute it from the node ids, the element ids and the incidence vectors: two
    accumulating scatters into the zero matrix, channel 0 at the cells (element, 2 * node), then channel 1 at the cells
    (element, 2 * node + 1), every index word first corrected for negative values. -/
def hostMint (node elem : IVec S4096 32) (vecs : FVec Ideal S4096x2 .f32) : FVec Ideal S2048x2048 .bf16 :=
  truncf .bf16
    (Host.scatterAdd (F := Ideal) scatter_S2048x2048_S4096x2_S4096_n_01_01_1
      (Host.scatterAdd (F := Ideal) scatter_S2048x2048_S4096x2_S4096_n_01_01_1
        (broadcastInDim S2048x2048 ![] bcast_S_S2048x2048 (constant (F := Ideal) S_ .f32 0#32))
        (pairs bcast_S4096_S4096x1_0 concatenates_S4096x1_S4096x1_S4096x2_d1 (fixw bcast_S_S4096 elem)
          (fixw bcast_S_S4096 (twice bcast_S_S4096 node)))
        (shapeCast S4096 (extractStridedSlice S4096x1 ![0, 0] vecs slices_S4096x2_S4096x1_0_0) shapeCasts_S4096x1_S4096))
      (pairs bcast_S4096_S4096x1_0 concatenates_S4096x1_S4096x1_S4096x2_d1 (fixw bcast_S_S4096 elem)
        (fixw bcast_S_S4096 (twiceSucc bcast_S_S4096 node)))
      (shapeCast S4096 (extractStridedSlice S4096x1 ![0, 1] vecs slices_S4096x2_S4096x1_0_1) shapeCasts_S4096x1_S4096))
    bitsLt_bf16_f32

/-- With ids in range, that matrix is `mintAt` of the incidence vectors. -/
theorem hostMint_read (node elem : IVec S4096 32) (vecs : FVec Ideal S4096x2 .f32)
    (nd : Fin 4096 → Fin 1024) (el : Fin 4096 → Fin 2048)
    (hnd : ∀ k : Fin 4096, (node (ix1 k)).toInt = ((nd k).val : Int))
    (hel : ∀ k : Fin 4096, (elem (ix1 k)).toInt = ((el k).val : Int)) (j col : Fin 2048) :
    hostMint node elem vecs (ix2 j col) = mintAt (fun k ch => vecs (ix2 k ch)) nd el j col := by
  unfold hostMint
  rw [truncf_apply, hostScatterAdd_eq, hostScatterAdd_eq, scatterAdd_pairs_apply _ rfl rfl rfl rfl,
    scatterAdd_pairs_apply _ rfl rfl rfl rfl]
  unfold mintAt
  rw [broadcastInDim_scalar_apply, constant_apply, Ideal.ofBits_zero_f32, zero_add]
  congr 1
  · refine Finset.sum_congr (Finset.filter_congr fun k _ => cond0 _ _ _ node elem nd el hnd hel j col k) fun k _ => ?_
    exact chan_read 0 _ rfl _ _ vecs k
  · refine Finset.sum_congr (Finset.filter_congr fun k _ => cond1 _ _ _ node elem nd el hnd hel j col k) fun k _ => ?_
    exact chan_read 1 _ rfl _ _ vecs k

/-- The host lines' term of the weight matrix depends only on the two pairs of index columns and the two update vectors. -/
theorem host_congr {A1 A1' B1 B1' A2 A2' B2 B2' : IVec S4096x1 32} {U1 U1' U2 U2' : FVec Ideal S4096 .f32}
    (a1 : A1 = A1') (b1 : B1 = B1') (a2 : A2 = A2') (b2 : B2 = B2') (u1 : U1 = U1') (u2 : U2 = U2') :
    truncf .bf16
      (Host.scatterAdd (F := Ideal) scatter_S2048x2048_S4096x2_S4096_n_01_01_1
        (Host.scatterAdd (F := Ideal) scatter_S2048x2048_S4096x2_S4096_n_01_01_1
          (broadcastInDim S2048x2048 ![] bcast_S_S2048x2048 (constant (F := Ideal) S_ .f32 0#32))
          (concatenate S4096x2 1 [⟨S4096x1, A1⟩, ⟨S4096x1, B1⟩] concatenates_S4096x1_S4096x1_S4096x2_d1) U1)
        (concatenate S4096x2 1 [⟨S4096x1, A2⟩, ⟨S4096x1, B2⟩] concatenates_S4096x1_S4096x1_S4096x2_d1) U2)
      bitsLt_bf16_f32
    = truncf .bf16
      (Host.scatterAdd (F := Ideal) scatter_S2048x2048_S4096x2_S4096_n_01_01_1
        (Host.scatterAdd (F := Ideal) scatter_S2048x2048_S4096x2_S4096_n_01_01_1
          (broadcastInDim S2048x2048 ![] bcast_S_S2048x2048 (constant (F := Ideal) S_ .f32 0#32))
          (concatenate S4096x2 1 [⟨S4096x1, A1'⟩, ⟨S4096x1, B1'⟩] concatenates_S4096x1_S4096x1_S4096x2_d1) U1')
        (concatenate S4096x2 1 [⟨S4096x1, A2'⟩, ⟨S4096x1, B2'⟩] concatenates_S4096x1_S4096x1_S4096x2_d1) U2')
      bitsLt_bf16_f32 := by
  subst a1 b1 a2 b2 u1 u2
  rfl

variable (m : (ℓ : Loc nD τ sig) → Buf (Elt Ideal) ℓ)

/-- The weight matrix the launch finds is the host lines' term of the three arguments. -/
theorem V_mint_eq (c : Dev nD) :
    V m c main_v39 = hostMint (m ((c : Thread nD τ).loc main_arg5)) (m ((c : Thread nD τ).loc main_arg6))
      (m ((c : Thread nD τ).loc main_arg4)) := by
  show StableHlo.after hostOps0 (fun b => m (c, b)) (Proc.devRef .tc main_v39) = _
  after_results_simp
  unfold hostMint pairs
  refine host_congr ?_ ?_ ?_ ?_ rfl rfl
  all_goals (after_results_simp; rfl)

/-- With ids in range, the weight matrix the launch finds is `mintAt` of the incidence vectors. -/
theorem V_mint (c : Dev nD) (nd : Fin 4096 → Fin 1024) (el : Fin 4096 → Fin 2048)
    (hnd : ∀ k : Fin 4096, (m ((c : Thread nD τ).loc main_arg5) (ix1 k)).toInt = ((nd k).val : Int))
    (hel : ∀ k : Fin 4096, (m ((c : Thread nD τ).loc main_arg6) (ix1 k)).toInt = ((el k).val : Int))
    (j col : Fin 2048) :
    V m c main_v39 (ix2 j col) = mintAt (fun k ch => m ((c : Thread nD τ).loc main_arg4) (ix2 k ch)) nd el j col := by
  rw [V_mint_eq]
  exact hostMint_read _ _ _ nd el hnd hel j col

/-- A (batch, node, channel) array flattened to (batch, 2 * node + channel) reads, at (b, col), the entry
    (b, col / 2, col % 2): the same row-major position. -/
theorem flat_read {α : Type} (x : S4096x1024x2.Idx → α) (h : S4096x1024x2.ShapeCasts S4096x2048) (b : Fin 4096)
    (col : Fin 2048) :
    shapeCast S4096x2048 x h (ix2 b col) = x (ix3 b ⟨col.val / 2, by omega⟩ ⟨col.val % 2, by omega⟩) := by
  refine shapeCast_apply x h _ _ ?_
  rw [Shape.rowMajor_val_three, Shape.rowMajor_val_two]
  show ((b.val * 1024 + col.val / 2) * 2 + col.val % 2) = b.val * 2048 + col.val
  omega

/-- The flattened loads the launch finds. -/
theorem V_qflat (c : Dev nD) (b : Fin 4096) (col : Fin 2048) :
    V m c main_v40 (ix2 b col) = flat (fun b n ch => m ((c : Thread nD τ).loc main_arg2) (ix3 b n ch)) b col := by
  have e : V m c main_v40
      = shapeCast S4096x2048 (m ((c : Thread nD τ).loc main_arg2)) shapeCasts_S4096x1024x2_S4096x2048 := by
    show StableHlo.after hostOps0 (fun b => m (c, b)) (Proc.devRef .tc main_v40) = _
    after_results_simp
    rfl
  rw [e]
  exact flat_read _ _ b col

/-- The flattened reactions the launch finds. -/
theorem V_rflat (c : Dev nD) (b : Fin 4096) (col : Fin 2048) :
    V m c main_v41 (ix2 b col) = flat (fun b n ch => m ((c : Thread nD τ).loc main_arg3) (ix3 b n ch)) b col := by
  have e : V m c main_v41
      = shapeCast S4096x2048 (m ((c : Thread nD τ).loc main_arg3)) shapeCasts_S4096x1024x2_S4096x2048 := by
    show StableHlo.after hostOps0 (fun b => m (c, b)) (Proc.devRef .tc main_v41) = _
    after_results_simp
    rfl
  rw [e]
  exact flat_read _ _ b col

end Cert.KernelIdeal.HostValue

end
-- ==== Proof.LibRealSums.lean ====
import Idealize.ShloMosaic.PureOps.Ideal

/-! # Finite sums of extended reals that are real numbers

On the extended reals a product does not distribute over a sum, and a factor does not move across a sum, once an
infinity is among the terms; among real numbers both hold. `IsReal x` says the extended real `x` is a real number; it is
kept by sums, products, maxima, inverses and by the quotient `Ideal.div` by a non-zero divisor. Two laws follow:

* `div_eq_mul_div_one`: dividing by a non-zero `c` is multiplying by the reciprocal `1 / c` (no finiteness needed);
* `sum_div_mul_eq`: for real terms `a e k` and real weights `w k`, summing over a finite set `E` first, dividing by
  `c ≠ 0` and contracting with `w` is the same as contracting each `a e ·` with `w`, summing over `E`, and multiplying by the
  reciprocal `1 / c` — the average of linear images is the linear image of the average. -/

open scoped BigOperators

namespace Idealize.ShloMosaic.RealSums

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type*} (s : Finset ι) (f : ι → EReal) (h : ∀ i ∈ s, IsReal (f i)) :
    IsReal (∑ i ∈ s, f i) :=
  Finset.sum_induction f IsReal (fun _ _ => IsReal.add) IsReal.zero h

/-- The inverse of ANY extended real is a real number: the infinities invert to zero. -/
theorem IsReal.inv (c : EReal) : IsReal c⁻¹ := by
  induction c using EReal.rec with
  | bot => exact ⟨0, EReal.inv_bot⟩
  | top => exact ⟨0, EReal.inv_top⟩
  | coe r => exact ⟨r⁻¹, (EReal.coe_inv r).symm⟩

theorem IsReal.div {x c : EReal} (hx : IsReal x) (hc : c ≠ 0) : IsReal (Ideal.div x c) := by
  rw [Ideal.div, if_neg hc]; exact hx.mul (IsReal.inv c)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing by a non-zero `c` is multiplying by its reciprocal. -/
theorem div_eq_mul_div_one (x : EReal) {c : EReal} (hc : c ≠ 0) : Ideal.div x c = x * Ideal.div 1 c := by
  rw [Ideal.div, if_neg hc, Ideal.div, if_neg hc, one_mul]

/-- THE AVERAGE OF LINEAR IMAGES: real terms summed over `E`, divided by `c ≠ 0`, contracted with real weights, against
    each term contracted first, then summed over `E`, then scaled by the reciprocal of `c`. -/
theorem sum_div_mul_eq {ι κ : Type*} [Fintype κ] (E : Finset ι) (a : ι → κ → EReal) (w : κ → EReal) (c : EReal)
    (ha : ∀ e k, IsReal (a e k)) (hw : ∀ k, IsReal (w k)) (hc : c ≠ 0) :
    ∑ k, Ideal.div (∑ e ∈ E, a e k) c * w k = (∑ e ∈ E, ∑ k, a e k * w k) * Ideal.div 1 c := by
  obtain ⟨r, hr⟩ := IsReal.inv c
  choose a' ha' using ha
  choose w' hw' using hw
  have hd : ∀ x, Ideal.div x c = x * (r : EReal) := fun x => by rw [Ideal.div, if_neg hc, hr]
  simp only [hd, ha', hw', one_mul, ← coe_sum, ← EReal.coe_mul]
  rw [EReal.coe_eq_coe_iff]
  simp only [Finset.sum_mul]
  rw [Finset.sum_comm]
  refine Finset.sum_congr rfl fun e _ => Finset.sum_congr rfl fun k _ => ?_
  ring

end Idealize.ShloMosaic.RealSums
-- ==== Proof.LibScatterAddMid.lean ====
import Idealize.ShloMosaic.PureOps.Ideal
import Idealize.ShloMosaic.PureOps.Contract
import Idealize.ShloMosaic.Lib.ValueIdx

/-! # A float scatter-add along the middle axis of a rank-3 array, read at an index

The accumulating float scatter at the ideal values is, at every operand element, that element plus the sum of the update
elements that land on it. Worked out here, at any extents, for slabs added along the MIDDLE axis of a rank-3 operand:
operand `[B, N, C]`, scatter indices `[K, 1]` (the index vector on axis 1), updates `[B, K, C]`; the update's axes 0 and 2 are
its window axes and go to the operand's axes 0 and 2, the operand's axis 1 is the inserted (scattered) axis: update slab
`k` is added, whole, to the operand slab named by the scatter index `idx[k, 0]` read as a SIGNED integer, and is dropped
when that integer is not a position on the middle axis (`x.at[:, idx, :].add(upd)`). So operand entry `(b, n, c)` receives
exactly the entries `(b, k, c)` of the update slabs `k` whose scatter index is `n`. Stated at the literal dimension-number
record `midAddDims` and for ANY record with these fields. -/

open scoped BigOperators

namespace Idealize.ShloMosaic.ScatterAddMid

open Idealize.ShloMosaic Idealize.ShloMosaic.ValueIdx

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The literal record -/

/-- The dimension numbers of a middle-axis slab scatter: the update's axes 0 and 2 are window axes, going to the operand's
    axes 0 and 2; the operand's axis 1 is inserted and is the one the scatter indices name. -/
abbrev midAddDims (B N K C : Nat)
    (wf : ScatterDims.WF ⟨3, ![B, N, C]⟩ ⟨2, ![K, 1]⟩ ⟨3, ![B, K, C]⟩ [0, 2] [1] [1] 1) :
    ScatterDims ⟨3, ![B, N, C]⟩ ⟨2, ![K, 1]⟩ ⟨3, ![B, K, C]⟩ where
  updateWindowDims := [0, 2]
  insertedWindowDims := [1]
  scatterDimsToOperandDims := [1]
  indexVectorDim := 1
  wf := wf

section
variable {B N K C w : Nat} (wf : ScatterDims.WF ⟨3, ![B, N, C]⟩ ⟨2, ![K, 1]⟩ ⟨3, ![B, K, C]⟩ [0, 2] [1] [1] 1)
  (idx : IVec ⟨2, ![K, 1]⟩ w) (b' : Fin B) (k : Fin K) (c' : Fin C)

/-- On the middle axis the window of update `(b', k, c')` starts at the scatter index `idx[k, 0]`, read signed. -/
theorem start_mid :
    (midAddDims B N K C wf).start (ix3 b' k c') idx (1 : Fin 3) = (idx (ix2 k (0 : Fin 1))).toInt := by
  unfold ScatterDims.start
  rw [dif_pos (show (1 : Fin 3) ∈ (midAddDims B N K C wf).scatterDimsToOperandDims from List.mem_singleton.mpr rfl)]
  have hsi : (midAddDims B N K C wf).siIdx (ix3 b' k c')
      ⟨List.idxOf (1 : Fin 3) (midAddDims B N K C wf).scatterDimsToOperandDims,
        List.idxOf_lt_length_iff.2 (List.mem_singleton.mpr rfl)⟩ = ix2 k (0 : Fin 1) := by
    funext a; refine Fin.ext ?_
    match a with
    | ⟨0, _⟩ => rfl
    | ⟨1, _⟩ => rfl
  rw [hsi]

/-- On the first axis the window starts at `0`: the scatter indices do not name that axis. -/
theorem start_fst : (midAddDims B N K C wf).start (ix3 b' k c') idx (0 : Fin 3) = 0 := by
  unfold ScatterDims.start
  rw [dif_neg (show ¬ (0 : Fin 3) ∈ (midAddDims B N K C wf).scatterDimsToOperandDims from
    (by decide : ¬ (0 : Fin 3) ∈ [(1 : Fin 3)]))]

/-- On the last axis the window starts at `0` as well. -/
theorem start_lst : (midAddDims B N K C wf).start (ix3 b' k c') idx (2 : Fin 3) = 0 := by
  unfold ScatterDims.start
  rw [dif_neg (show ¬ (2 : Fin 3) ∈ (midAddDims B N K C wf).scatterDimsToOperandDims from
    (by decide : ¬ (2 : Fin 3) ∈ [(1 : Fin 3)]))]

/-- The operand's axes that are not inserted: the first and the last. -/
theorem sKept_eq : (midAddDims B N K C wf).sKept = [(0 : Fin 3), (2 : Fin 3)] := rfl

/-- On the first axis the window coordinate is the update's own first coordinate. -/
theorem window_fst : (midAddDims B N K C wf).window (ix3 b' k c') (0 : Fin 3) = b'.val := by
  unfold ScatterDims.window
  have h : (0 : Fin 3) ∈ [(0 : Fin 3), (2 : Fin 3)] := by decide
  rw [dif_pos (show (0 : Fin 3) ∈ (midAddDims B N K C wf).sKept from h)]
  rfl

/-- The middle axis is inserted: no window coordinate on it. -/
theorem window_mid : (midAddDims B N K C wf).window (ix3 b' k c') (1 : Fin 3) = 0 := by
  unfold ScatterDims.window
  have h : (1 : Fin 3) ∉ [(0 : Fin 3), (2 : Fin 3)] := by decide
  rw [dif_neg (show ¬ (1 : Fin 3) ∈ (midAddDims B N K C wf).sKept from h)]

/-- On the last axis the window coordinate is the update's own last coordinate. -/
theorem window_lst : (midAddDims B N K C wf).window (ix3 b' k c') (2 : Fin 3) = c'.val := by
  unfold ScatterDims.window
  have h : (2 : Fin 3) ∈ [(0 : Fin 3), (2 : Fin 3)] := by decide
  rw [dif_pos (show (2 : Fin 3) ∈ (midAddDims B N K C wf).sKept from h)]
  rfl

/-- WHERE AN UPDATE LANDS: update `(b', k, c')` lands on operand entry `(b, n, c)` exactly when its scatter index is
    position `n` and its outer coordinates are `b` and `c`. -/
theorem resultIdx?_eq_some_iff (b : Fin B) (n : Fin N) (c : Fin C) :
    (midAddDims B N K C wf).resultIdx? (ix3 b' k c') idx = some (ix3 b n c)
      ↔ (idx (ix2 k (0 : Fin 1))).toInt = (n.val : Int) ∧ b' = b ∧ c' = c := by
  have hn : n.val < N := n.isLt
  have hb : b'.val < B := b'.isLt
  have hc : c'.val < C := c'.isLt
  unfold ScatterDims.resultIdx?
  split
  · rename_i h
    rw [Option.some.injEq]
    constructor
    · intro heq
      have e0 := congrArg (fun f : (⟨3, ![B, N, C]⟩ : Shape).Idx => (f (0 : Fin 3)).val) heq
      have e1 := congrArg (fun f : (⟨3, ![B, N, C]⟩ : Shape).Idx => (f (1 : Fin 3)).val) heq
      have e2 := congrArg (fun f : (⟨3, ![B, N, C]⟩ : Shape).Idx => (f (2 : Fin 3)).val) heq
      simp only [start_mid, start_fst, start_lst, window_fst, window_mid, window_lst] at e0 e1 e2
      have h1 := h 1
      rw [start_mid, window_mid] at h1
      refine ⟨?_, Fin.ext ?_, Fin.ext ?_⟩
      · have : ((idx (ix2 k (0 : Fin 1))).toInt + ((0 : Nat) : Int)).toNat = n.val := e1
        omega
      · have : ((0 : Int) + (b'.val : Int)).toNat = b.val := e0
        omega
      · have : ((0 : Int) + (c'.val : Int)).toNat = c.val := e2
        omega
    · rintro ⟨hmid, rfl, rfl⟩
      funext a; refine Fin.ext ?_
      match a with
      | ⟨0, _⟩ =>
        show ((midAddDims B N K C wf).start (ix3 b' k c') idx (0 : Fin 3)
          + (midAddDims B N K C wf).window (ix3 b' k c') (0 : Fin 3)).toNat = b'.val
        rw [start_fst, window_fst]; omega
      | ⟨1, _⟩ =>
        show ((midAddDims B N K C wf).start (ix3 b' k c') idx (1 : Fin 3)
          + (midAddDims B N K C wf).window (ix3 b' k c') (1 : Fin 3)).toNat = n.val
        rw [start_mid, window_mid]; omega
      | ⟨2, _⟩ =>
        show ((midAddDims B N K C wf).start (ix3 b' k c') idx (2 : Fin 3)
          + (midAddDims B N K C wf).window (ix3 b' k c') (2 : Fin 3)).toNat = c'.val
        rw [start_lst, window_lst]; omega
  · rename_i h
    constructor
    · intro heq; exact absurd heq (by simp)
    · rintro ⟨hmid, rfl, rfl⟩
      exfalso; apply h; intro a
      match a with
      | ⟨0, _⟩ =>
        show 0 ≤ (midAddDims B N K C wf).start (ix3 b' k c') idx (0 : Fin 3)
            + (midAddDims B N K C wf).window (ix3 b' k c') (0 : Fin 3)
          ∧ (midAddDims B N K C wf).start (ix3 b' k c') idx (0 : Fin 3)
            + (midAddDims B N K C wf).window (ix3 b' k c') (0 : Fin 3) < (B : Int)
        rw [start_fst, window_fst]; omega
      | ⟨1, _⟩ =>
        show 0 ≤ (midAddDims B N K C wf).start (ix3 b' k c') idx (1 : Fin 3)
            + (midAddDims B N K C wf).window (ix3 b' k c') (1 : Fin 3)
          ∧ (midAddDims B N K C wf).start (ix3 b' k c') idx (1 : Fin 3)
            + (midAddDims B N K C wf).window (ix3 b' k c') (1 : Fin 3) < (N : Int)
        rw [start_mid, window_mid]; omega
      | ⟨2, _⟩ =>
        show 0 ≤ (midAddDims B N K C wf).start (ix3 b' k c') idx (2 : Fin 3)
            + (midAddDims B N K C wf).window (ix3 b' k c') (2 : Fin 3)
          ∧ (midAddDims B N K C wf).start (ix3 b' k c') idx (2 : Fin 3)
            + (midAddDims B N K C wf).window (ix3 b' k c') (2 : Fin 3) < (C : Int)
        rw [start_lst, window_lst]; omega

end

/-- THE MIDDLE-AXIS SCATTER-ADD AT THE LITERAL RECORD, READ AT `(b, n, c)`. -/
theorem hostScatterAdd_midAddDims_apply {B N K C w : Nat}
    (wf : ScatterDims.WF ⟨3, ![B, N, C]⟩ ⟨2, ![K, 1]⟩ ⟨3, ![B, K, C]⟩ [0, 2] [1] [1] 1)
    (x : (⟨3, ![B, N, C]⟩ : Shape).Idx → EReal) (idx : IVec ⟨2, ![K, 1]⟩ w) (upd : (⟨3, ![B, K, C]⟩ : Shape).Idx → EReal)
    (b : Fin B) (n : Fin N) (c : Fin C) :
    Ideal.hostScatterAdd (midAddDims B N K C wf) x idx upd (ix3 b n c)
      = x (ix3 b n c) + ∑ k ∈ Finset.univ.filter (fun k : Fin K => (idx (ix2 k (0 : Fin 1))).toInt = (n.val : Int)), upd (ix3 b k c) := by
  unfold Ideal.hostScatterAdd
  congr 1
  rw [Finset.sum_filter, sum_idx3, Finset.sum_filter]
  rw [Finset.sum_eq_single b]
  · refine Finset.sum_congr rfl fun k _ => ?_
    by_cases ht : (idx (ix2 k (0 : Fin 1))).toInt = (n.val : Int)
    · rw [if_pos ht, Finset.sum_eq_single c]
      · rw [if_pos ((resultIdx?_eq_some_iff wf idx b k c b n c).mpr ⟨ht, rfl, rfl⟩)]
      · intro c' _ hcc
        rw [if_neg (fun h => hcc ((resultIdx?_eq_some_iff wf idx b k c' b n c).mp h).2.2)]
      · intro h; exact absurd (Finset.mem_univ c) h
    · rw [if_neg ht]
      refine Finset.sum_eq_zero fun c' _ => ?_
      rw [if_neg (fun h => ht ((resultIdx?_eq_some_iff wf idx b k c' b n c).mp h).1)]
  · intro b' _ hbb
    refine Finset.sum_eq_zero fun k _ => Finset.sum_eq_zero fun c' _ => ?_
    rw [if_neg (fun h => hbb ((resultIdx?_eq_some_iff wf idx b' k c' b n c).mp h).2.1)]
  · intro h; exact absurd (Finset.mem_univ b) h

/-- THE MIDDLE-AXIS SCATTER-ADD AT ANY RECORD WITH THESE FIELDS, READ AT `(b, n, c)`: the operand's entry plus the sum,
    over the update slabs `k` whose scatter index is `n`, of the update's entry `(b, k, c)`. -/
theorem hostScatterAdd_mid_apply {B N K C w : Nat} (d : ScatterDims ⟨3, ![B, N, C]⟩ ⟨2, ![K, 1]⟩ ⟨3, ![B, K, C]⟩)
    (hu : d.updateWindowDims = [0, 2]) (hi : d.insertedWindowDims = [1]) (hs : d.scatterDimsToOperandDims = [1])
    (hv : d.indexVectorDim = 1)
    (x : (⟨3, ![B, N, C]⟩ : Shape).Idx → EReal) (idx : IVec ⟨2, ![K, 1]⟩ w) (upd : (⟨3, ![B, K, C]⟩ : Shape).Idx → EReal)
    (b : Fin B) (n : Fin N) (c : Fin C) :
    Ideal.hostScatterAdd d x idx upd (ix3 b n c)
      = x (ix3 b n c) + ∑ k ∈ Finset.univ.filter (fun k : Fin K => (idx (ix2 k (0 : Fin 1))).toInt = (n.val : Int)), upd (ix3 b k c) := by
  obtain ⟨uw, iw, sd, iv, wf⟩ := d
  simp only at hu hi hs hv
  subst hu hi hs hv
  exact hostScatterAdd_midAddDims_apply wf x idx upd b n c

end Idealize.ShloMosaic.ScatterAddMid
-- ==== Proof.LibGatherCol.lean ====
import Idealize.ShloMosaic.PureOps.ShapeOps
import Idealize.ShloMosaic.Lib.ValueIdx

/-! # A gather that takes columns of a table, read at an index

`Host.gather d x idx j = x (d.operandIdx j idx)`: on each operand axis the operand index is the clamped start plus the
batching coordinate plus the offset coordinate. Worked out here, at any extents, for the columns of a rank-2 table
(`x[:, idx]`): operand `[R, N]`, start indices `[K, 1]` (the index vector on axis 1), result `[R, K]`; the column axis is
gathered (collapsed, one column per start index) and the row axis is the one offset axis, read whole. Result entry
`(r, k)` is the table's entry `(r, c)` with `c` the start index `idx[k, 0]` read as a SIGNED integer and CLAMPED into
`[0, N − 1]` (`gather_colTake_apply`); for a start index already inside the table the clamp does nothing
(`gather_colTake_apply_of_lt`). Both are stated for ANY dimension-number record with these fields, the field equations
taken as hypotheses (each is `rfl` at a literal record), and again at the literal record `colTakeDims`. -/

namespace Idealize.ShloMosaic.GatherCol

open Idealize.ShloMosaic Idealize.ShloMosaic.ValueIdx

/-- A signed word that is non-negative and below `N`, clamped into `[0, N - 1]`, is its own value. -/
theorem clamp_of_lt {w : Nat} (v : BitVec w) {N : Nat} (h0 : 0 ≤ v.toInt) (hN : v.toInt < (N : Int)) :
    min v.toInt.toNat (N - 1) = v.toInt.toNat := by
  apply Nat.min_eq_left
  omega

section
variable {α : Type}

/-- The dimension numbers of a column take: operand `[R, N]`, start indices `[K, 1]`, result `[R, K]`; axis 1 of the
    operand is gathered (collapsed, slice size 1), axis 0 is the offset axis (slice size `R`), read by the result's
    axis 0. Their conditions `wf` are decided on a program's literal shapes. -/
abbrev colTakeDims (R N K : Nat)
    (wf : GatherDims.WF ⟨2, ![R, N]⟩ ⟨2, ![K, 1]⟩ ⟨2, ![R, K]⟩ [0] [1] [] [1] [] 1 ![R, 1]) :
    GatherDims ⟨2, ![R, N]⟩ ⟨2, ![K, 1]⟩ ⟨2, ![R, K]⟩ where
  offsetDims := [0]
  collapsedSliceDims := [1]
  operandBatchingDims := []
  startIndicesBatchingDims := []
  startIndexMap := [1]
  indexVectorDim := 1
  sliceSizes := ![R, 1]
  wf := wf

/-- The operand index of a column take on the column axis: the start index `idx[k, 0]` read signed and clamped into
    `[0, N − 1]` (the axis is in the start index map, its slice size is `1`), with no batching and no offset coordinate
    (the axis is collapsed). -/
theorem operandIdx_col {R N K w : Nat}
    (wf : GatherDims.WF ⟨2, ![R, N]⟩ ⟨2, ![K, 1]⟩ ⟨2, ![R, K]⟩ [0] [1] [] [1] [] 1 ![R, 1])
    (idx : IVec ⟨2, ![K, 1]⟩ w) (r : Fin R) (k : Fin K) :
    (colTakeDims R N K wf).start (ix2 r k) idx (1 : Fin 2) + (colTakeDims R N K wf).batchCoord (ix2 r k) (1 : Fin 2)
      + (colTakeDims R N K wf).offCoord (ix2 r k) (1 : Fin 2) = min (idx (ix2 k (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (colTakeDims R N K wf).startIndexMap from List.mem_singleton.mpr rfl)]
  have hsi : (colTakeDims R N K wf).siIdx (ix2 r k) ⟨List.idxOf (1 : Fin 2) (colTakeDims R N K wf).startIndexMap,
      List.idxOf_lt_length_iff.2 (List.mem_singleton.mpr rfl)⟩ = ix2 k (0 : Fin 1) := by
    funext e; refine Fin.ext ?_
    match e with
    | ⟨0, _⟩ => rfl
    | ⟨1, _⟩ => rfl
  rw [hsi]
  rfl

/-- The operand index of a column take on the row axis: the result's own row `r` (the axis is the one the offset axis
    reads), with start `0` (the start index map does not name the axis) and no batching coordinate. -/
theorem operandIdx_row {R N K w : Nat}
    (wf : GatherDims.WF ⟨2, ![R, N]⟩ ⟨2, ![K, 1]⟩ ⟨2, ![R, K]⟩ [0] [1] [] [1] [] 1 ![R, 1])
    (idx : IVec ⟨2, ![K, 1]⟩ w) (r : Fin R) (k : Fin K) :
    (colTakeDims R N K wf).start (ix2 r k) idx (0 : Fin 2) + (colTakeDims R N K wf).batchCoord (ix2 r k) (0 : Fin 2)
      + (colTakeDims R N K wf).offCoord (ix2 r k) (0 : Fin 2) = r.val := by
  have h01 : (0 : Fin 2) ∉ [(1 : Fin 2)] := by decide
  have hst : (colTakeDims R N K wf).start (ix2 r k) idx (0 : Fin 2) = 0 := by
    unfold GatherDims.start
    rw [dif_neg (show ¬ (0 : Fin 2) ∈ (colTakeDims R N K wf).startIndexMap from h01)]
  have hoff : (colTakeDims R N K wf).offCoord (ix2 r k) (0 : Fin 2) = r.val := by
    unfold GatherDims.offCoord
    rw [dif_pos ((GatherDims.mem_sKept _ _).mpr ⟨h01, List.not_mem_nil⟩)]
    rfl
  rw [GatherDims.batchCoord_eq_zero _ _ _ List.not_mem_nil, hst, hoff, Nat.add_zero, Nat.zero_add]

/-- THE COLUMN TAKE AT THE LITERAL RECORD, READ AT `(r, k)`: the operand's entry `(r, c)`, `c` the start index
    `idx[k, 0]` read signed and clamped into `[0, N − 1]`: the operand index coordinate by coordinate. -/
theorem gather_colTakeDims_apply {R N K w : Nat} (hN : 0 < N)
    (wf : GatherDims.WF ⟨2, ![R, N]⟩ ⟨2, ![K, 1]⟩ ⟨2, ![R, K]⟩ [0] [1] [] [1] [] 1 ![R, 1])
    (x : (⟨2, ![R, N]⟩ : Shape).Idx → α) (idx : IVec ⟨2, ![K, 1]⟩ w) (r : Fin R) (k : Fin K) :
    Host.gather (colTakeDims R N K wf) x idx (ix2 r k)
      = x (ix2 r ⟨min (idx (ix2 k (0 : Fin 1))).toInt.toNat (N - 1), by omega⟩) := by
  unfold Host.gather
  congr 1
  funext a
  refine Fin.ext ?_
  match a with
  | ⟨0, _⟩ => exact operandIdx_row wf idx r k
  | ⟨1, _⟩ => exact operandIdx_col wf idx r k

/-- THE COLUMN TAKE AT ANY RECORD WITH THESE FIELDS, READ AT `(r, k)`: a record is its fields, so it is the literal
    one. -/
theorem gather_colTake_apply {R N K w : Nat} (hN : 0 < N)
    (d : GatherDims ⟨2, ![R, N]⟩ ⟨2, ![K, 1]⟩ ⟨2, ![R, K]⟩)
    (ho : d.offsetDims = [0]) (hc : d.collapsedSliceDims = [1]) (hb : d.operandBatchingDims = [])
    (hsb : d.startIndicesBatchingDims = []) (hm : d.startIndexMap = [1]) (hv : d.indexVectorDim = 1)
    (hs : d.sliceSizes = ![R, 1])
    (x : (⟨2, ![R, N]⟩ : Shape).Idx → α) (idx : IVec ⟨2, ![K, 1]⟩ w) (r : Fin R) (k : Fin K) :
    Host.gather d x idx (ix2 r k)
      = x (ix2 r ⟨min (idx (ix2 k (0 : Fin 1))).toInt.toNat (N - 1), by omega⟩) := by
  obtain ⟨od, cd, ob, sb, sm, iv, ss, wf⟩ := d
  simp only at ho hc hb hsb hm hv hs
  subst ho hc hb hsb hm hv hs
  exact gather_colTakeDims_apply hN wf x idx r k

/-- The same for a start index inside the table: the clamp does nothing, and the column read is the one the index
    names. -/
theorem gather_colTake_apply_of_lt {R N K w : Nat}
    (d : GatherDims ⟨2, ![R, N]⟩ ⟨2, ![K, 1]⟩ ⟨2, ![R, K]⟩)
    (ho : d.offsetDims = [0]) (hc : d.collapsedSliceDims = [1]) (hb : d.operandBatchingDims = [])
    (hsb : d.startIndicesBatchingDims = []) (hm : d.startIndexMap = [1]) (hv : d.indexVectorDim = 1)
    (hs : d.sliceSizes = ![R, 1])
    (x : (⟨2, ![R, N]⟩ : Shape).Idx → α) (idx : IVec ⟨2, ![K, 1]⟩ w) (r : Fin R) (k : Fin K)
    (h0 : 0 ≤ (idx (ix2 k (0 : Fin 1))).toInt) (hlt : (idx (ix2 k (0 : Fin 1))).toInt < (N : Int)) :
    Host.gather d x idx (ix2 r k) = x (ix2 r ⟨(idx (ix2 k (0 : Fin 1))).toInt.toNat, by omega⟩) := by
  rw [gather_colTake_apply (by omega) d ho hc hb hsb hm hv hs x idx r k]
  congr 2
  exact Fin.ext (clamp_of_lt _ h0 hlt)

end

end Idealize.ShloMosaic.GatherCol
-- ==== Proof.RefValue.lean ====
import proofs.«430668_j15814069584181_3_alg».proof.Defs
import proofs.«430668_j15814069584181_3_alg».proof.Proof.Gen.ReferenceIdeal
import proofs.«430668_j15814069584181_3_alg».proof.Proof.Gen.ReferenceIdeal.Run
import proofs.«430668_j15814069584181_3_alg».proof.Proof.Gen.ReferenceIdeal.Read
import proofs.«430668_j15814069584181_3_alg».proof.Proof.Spec
import proofs.«430668_j15814069584181_3_alg».proof.Proof.LibRealSums
import proofs.«430668_j15814069584181_3_alg».proof.Proof.LibScatterAddMid
import proofs.«430668_j15814069584181_3_alg».proof.Proof.LibGatherCol
import Idealize.ShloMosaic.Lib.ValueIdx
import Idealize.ShloMosaic.Lib.Pipeline.Value
import Idealize.ShloMosaic.Lib.StableHlo.Predicate
import Idealize.ShloMosaic.PureOps.Ideal.Laws

/-! # The reference computes the sparse form -/

open scoped BigOperators

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Cert.Residual

/-! ## Index words: a non-negative id is not wrapped -/

/-- A signed word that is not negative is not below zero, so a select on "below zero" takes its second operand. -/
theorem select_slt_zero {α : Type} (w : BitVec 32) (h : 0 ≤ w.toInt) (a b : α) :
    Scalar.select (IntOp.cmpi .slt w 0#32) a b = b := by
  have hz : IntOp.cmpi .slt w 0#32 = 0#1 := by
    apply eq_zero_of_ne_one
    intro hc
    unfold IntOp.cmpi at hc
    rw [StableHlo.Predicate.ofBool_eq_one_iff] at hc
    have h0 : (0#32 : BitVec 32).toInt = 0 := by decide
    simp only [BitVec.slt, decide_eq_true_eq, h0] at hc
    omega
  rw [hz, select_zero]

/-- The node-id column at row `k` is the node id itself when it is not negative. -/
theorem v19_word (x5 : (⟨S4096, .i32⟩ : BufTy).Contents (Elt Ideal)) (k : Fin 4096) (h : 0 ≤ (x5 (ix1 k)).toInt) :
    val_main_v19 (F := Ideal) x5 (ix2 k (0 : Fin 1)) = x5 (ix1 k) := by
  have hi : idx_main_v19 (ix2 k (0 : Fin 1)) = ix1 k := by
    funext a; match a with | ⟨0, _⟩ => rfl
  rw [val_main_v19_apply, hi, val_main_v18_apply, val_main_v15_apply, val_main_v14_apply, val_main_c_1_apply]
  exact select_slt_zero _ h _ _

/-- The element-id column at row `k` is the element id itself when it is not negative. -/
theorem v6_word (x6 : (⟨S4096, .i32⟩ : BufTy).Contents (Elt Ideal)) (k : Fin 4096) (h : 0 ≤ (x6 (ix1 k)).toInt) :
    val_main_v6 (F := Ideal) x6 (ix2 k (0 : Fin 1)) = x6 (ix1 k) := by
  have hi : idx_main_v6 (ix2 k (0 : Fin 1)) = ix1 k := by
    funext a; match a with | ⟨0, _⟩ => rfl
  rw [val_main_v6_apply, hi, val_main_v5_apply, val_main_v2_apply, val_main_v1_apply, val_main_c_apply]
  exact select_slt_zero _ h _ _

/-! ## The gathered forces and the updates -/

section
variable (x0 x1 : (⟨S4096x2048, .f32⟩ : BufTy).Contents (Elt Ideal))
  (x2 x3 : (⟨S4096x1024x2, .f32⟩ : BufTy).Contents (Elt Ideal)) (x4 : (⟨S4096x2, .f32⟩ : BufTy).Contents (Elt Ideal))
  (x5 x6 : (⟨S4096, .i32⟩ : BufTy).Contents (Elt Ideal))
  (nd : Fin 4096 → Fin 1024) (el : Fin 4096 → Fin 2048)

/-- The gather reads, at `(b, k)`, the force of batch row `b` in the element of incidence entry `k`. -/
theorem v7_at (hel : ∀ k : Fin 4096, (x6 (ix1 k)).toInt = ((el k).val : Int)) (b k : Fin 4096) :
    val_main_v7 (F := Ideal) x0 x1 x6 (ix2 b k) = x0 (ix2 b (el k)) * x1 (ix2 b (el k)) := by
  have hw : val_main_v6 (F := Ideal) x6 (ix2 k (0 : Fin 1)) = x6 (ix1 k) := v6_word x6 k (by rw [hel]; omega)
  have key : ∀ j : Fin 2048, j.val = (el k).val →
      val_main_v0 (F := Ideal) x0 x1 (ix2 b j) = x0 (ix2 b (el k)) * x1 (ix2 b (el k)) := by
    intro j hj
    obtain rfl : j = el k := Fin.ext hj
    rfl
  unfold val_main_v7
  rw [GatherCol.gather_colTake_apply_of_lt _ rfl rfl rfl rfl rfl rfl rfl _ _ b k
    (by rw [hw, hel]; omega) (by rw [hw, hel]; have := (el k).isLt; omega)]
  refine key _ ?_
  show (val_main_v6 (F := Ideal) x6 (ix2 k (0 : Fin 1))).toInt.toNat = (el k).val
  rw [hw, hel]; omega

/-- The update at `(b, k, c)`: that force times channel `c` of the entry's vector. -/
theorem v12_at (hel : ∀ k : Fin 4096, (x6 (ix1 k)).toInt = ((el k).val : Int)) (b k : Fin 4096) (c : Fin 2) :
    val_main_v12 (F := Ideal) x0 x1 x4 x6 (ix3 b k c) = (x0 (ix2 b (el k)) * x1 (ix2 b (el k))) * x4 (ix2 k c) := by
  have h10 : idx_main_v8 (idx_main_v10 (ix3 b k c)) = ix2 b k := by
    funext a; match a with | ⟨0, _⟩ => rfl | ⟨1, _⟩ => rfl
  have h11 : idx_main_v9 (idx_main_v11 (ix3 b k c)) = ix2 k c := by
    funext a; match a with | ⟨0, _⟩ => rfl | ⟨1, _⟩ => rfl
  rw [val_main_v12_apply, val_main_v10_apply, val_main_v8_apply, h10, val_main_v11_apply, val_main_v9_apply, h11,
    v7_at x0 x1 x6 el hel b k, Ideal.mulf_def]

/-- The scatter at `(b, n, c)`: the sum of the updates of the incidence entries whose node is `n`. -/
theorem v20_at (hnd : ∀ k : Fin 4096, (x5 (ix1 k)).toInt = ((nd k).val : Int))
    (hel : ∀ k : Fin 4096, (x6 (ix1 k)).toInt = ((el k).val : Int)) (b : Fin 4096) (n : Fin 1024) (c : Fin 2) :
    val_main_v20 (F := Ideal) x0 x1 x4 x5 x6 (ix3 b n c)
      = ∑ k ∈ Finset.univ.filter (fun k : Fin 4096 => nd k = n), (x0 (ix2 b (el k)) * x1 (ix2 b (el k))) * x4 (ix2 k c) := by
  unfold val_main_v20
  show Ideal.hostScatterAdd scatter_S4096x1024x2_S4096x1_S4096x4096x2_02_1_1_1 (val_main_v13 (F := Ideal))
    (val_main_v19 (F := Ideal) x5) (val_main_v12 (F := Ideal) x0 x1 x4 x6) (ix3 b n c) = _
  rw [ScatterAddMid.hostScatterAdd_mid_apply _ rfl rfl rfl rfl, val_main_v13_apply, val_main_cst_apply, Ideal.ofBits_def,
    Ideal.ofBits_zero_f32, zero_add]
  have hf : (Finset.univ.filter fun k : Fin 4096 => (val_main_v19 (F := Ideal) x5 (ix2 k (0 : Fin 1))).toInt = (n.val : Int))
      = Finset.univ.filter (fun k : Fin 4096 => nd k = n) := by
    refine Finset.filter_congr fun k _ => ?_
    rw [v19_word x5 k (by rw [hnd]; omega), hnd]
    constructor
    · intro h; exact Fin.ext (by omega)
    · intro h; rw [h]
  rw [hf]
  exact Finset.sum_congr rfl fun k _ => v12_at x0 x1 x4 x6 el hel b k c

end

/-- With node ids `nd` and element ids `el` in range, the reference's result is the sparse form `rval` of its arguments. -/
theorem val_eq (x0 x1 : (⟨S4096x2048, .f32⟩ : BufTy).Contents (Elt Ideal))
    (x2 x3 : (⟨S4096x1024x2, .f32⟩ : BufTy).Contents (Elt Ideal)) (x4 : (⟨S4096x2, .f32⟩ : BufTy).Contents (Elt Ideal))
    (x5 x6 : (⟨S4096, .i32⟩ : BufTy).Contents (Elt Ideal))
    (nd : Fin 4096 → Fin 1024) (el : Fin 4096 → Fin 2048)
    (hnd : ∀ k : Fin 4096, (x5 (ix1 k)).toInt = ((nd k).val : Int))
    (hel : ∀ k : Fin 4096, (x6 (ix1 k)).toInt = ((el k).val : Int)) :
    val_main_v25 (F := Ideal) x0 x1 x2 x3 x4 x5 x6
      = fun _ => rval (fun b j => x0 (ix2 b j)) (fun b j => x1 (ix2 b j)) (fun k c => x4 (ix2 k c))
          (fun b n c => x2 (ix3 b n c)) (fun b n c => x3 (ix3 b n c)) nd el (Ideal.ofBits .f32 0x4B000000#32) := by
  funext i
  rw [val_main_v25_apply, val_main_cst_4_apply, Ideal.hostDivf_def, Ideal.ofBits_def, val_main_v24_apply,
    val_main_cst_3_apply, Ideal.ofBits_def, Ideal.ofBits_zero_f32, zero_add, ScatterAddMid.sum_idx3]
  unfold rval
  refine congrArg (fun s => Ideal.div s (Ideal.ofBits .f32 0x4B000000#32)) ?_
  refine Finset.sum_congr rfl fun b _ => Finset.sum_congr rfl fun n _ => Finset.sum_congr rfl fun c _ => ?_
  rw [val_main_v23_apply, val_main_v22_apply, val_main_v21_apply, Ideal.mulf_def, Ideal.subf_def, Ideal.subf_def,
    v20_at x0 x1 x4 x5 x6 nd el hnd hel b n c]
  unfold rres
  rfl

end Cert.ReferenceIdeal.RefValue

end
-- ==== Proof.PreDecode.lean ====
import proofs.«430668_j15814069584181_3_alg».proof.Pre_finite_inputs
import proofs.«430668_j15814069584181_3_alg».proof.Proof.LibRealSums
import Idealize.ShloMosaic.Lib.ReduceAll
import Idealize.ShloMosaic.Lib.StableHlo.Predicate
import Idealize.ShloMosaic.Lib.ValueIdx

/-! # What the precondition says

The precondition is one bit: the conjunction of "every entry of each of the five float arrays has absolute value below
+infinity" and "every node id lies in [0, 1024) and every element id in [0, 2048)". Read at the ideal values, where a
float is an extended real, it says every float entry is a real number and every id is in range. -/

noncomputable section

namespace Cert.PreDecode

open Idealize.ShloMosaic Idealize.ShloMosaic.RealSums Cert.Pre_finite_inputs

/-- The result of a reduction over all axes has one index. -/
instance : Subsingleton S_.Idx := ⟨fun a b => funext fun d => d.elim0⟩

/-- The pattern 0x7F800000 denotes +infinity. -/
theorem inf_eq_top : Ideal.ofBits .f32 0x7F800000#32 = (⊤ : EReal) := by simp [Ideal.ofBits, Ideal.ieee]

/-- An extended real whose absolute value max x (-x) is below +infinity is a real number: both infinities have
    absolute value +infinity. -/
theorem isReal_of_abs_lt_top (x : EReal) (h : max x (-x) < ⊤) : IsReal x := by
  induction x using EReal.rec with
  | bot => simp at h
  | top => simp at h
  | coe r => exact IsReal.coe r

/-- One entry: the comparison |x| < +infinity giving 1 says x is a real number. -/
theorem isReal_of_cmp (x : Ideal .f32)
    (h : FloatOps.cmpf .olt (FloatOps.hostAbsf x) (FloatOps.ofBits (F := Ideal) .f32 0x7F800000#32) = 1#1) : IsReal x := by
  change Ideal.cmp .olt (max (x : EReal) (-(x : EReal))) (Ideal.ofBits .f32 0x7F800000#32) = 1#1 at h
  rw [inf_eq_top] at h
  unfold Ideal.cmp at h
  by_cases hlt : max (x : EReal) (-(x : EReal)) < ⊤
  · exact isReal_of_abs_lt_top x hlt
  · simp [hlt] at h

/-- The conjunction over all entries of an array (of any shape) of "|x| < +infinity" being true: every entry is a real number. -/
theorem real_of_all {S : Shape} (hb : S_.BroadcastsInDim S (![] : Fin 0 → Fin S.rank)) {axes : List (Fin S.rank)}
    (hr : S.ReducesTo axes S_) (h0 : 0 < S_.numel) (x : FVec Ideal S .f32)
    (h : Host.reduce IntOp.andi
        (cmpf .olt (Host.absf x) (broadcastInDim S ![] hb (constant (F := Ideal) S_ .f32 0x7F800000#32)))
        (constantI S_ 1 1#1) hr h0 ValueIdx.ix0 = 1#1) (i : S.Idx) : IsReal (x i) :=
  isReal_of_cmp (x i) (Host.reduce_andi_all _ _ hr h0 _ h i)

/-- The conjunction over all entries of "a ≥ 0" (signed) being true: every word reads nonnegative. -/
theorem nonneg_of_all {S : Shape} (hb : S_.BroadcastsInDim S (![] : Fin 0 → Fin S.rank)) {axes : List (Fin S.rank)}
    (hr : S.ReducesTo axes S_) (h0 : 0 < S_.numel) (a : IVec S 32)
    (h : Host.reduce IntOp.andi (cmpi .sge a (broadcastInDim S ![] hb (constantI S_ 32 0#32)))
        (constantI S_ 1 1#1) hr h0 ValueIdx.ix0 = 1#1) (i : S.Idx) : 0 ≤ (a i).toInt := by
  have e : IntOp.cmpi .sge (a i) 0#32 = 1#1 := Host.reduce_andi_all _ _ hr h0 _ h i
  rw [IntOp.cmpi_sge] at e
  simpa using e

/-- The conjunction over all entries of "a < c" (signed) being true: every word reads below the constant c. -/
theorem lt_of_all {S : Shape} (hb : S_.BroadcastsInDim S (![] : Fin 0 → Fin S.rank)) {axes : List (Fin S.rank)}
    (hr : S.ReducesTo axes S_) (h0 : 0 < S_.numel) (a : IVec S 32) (c : BitVec 32)
    (h : Host.reduce IntOp.andi (cmpi .slt a (broadcastInDim S ![] hb (constantI S_ 32 c)))
        (constantI S_ 1 1#1) hr h0 ValueIdx.ix0 = 1#1) (i : S.Idx) : (a i).toInt < c.toInt := by
  have e : IntOp.cmpi .slt (a i) c = 1#1 := Host.reduce_andi_all _ _ hr h0 _ h i
  exact IntOp.cmpi_slt.1 e

/-- The precondition, decoded: real entries and ids in range. -/
theorem decode [Cert.Pre_finite_inputs.Facts]
    (a0 a1 : FVec Ideal S4096x2048 .f32) (a2 a3 : FVec Ideal S4096x1024x2 .f32) (a4 : FVec Ideal S4096x2 .f32)
    (a5 a6 : IVec S4096 32)
    (h : Cert.Pre_finite_inputs.fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, 0 ≤ (a5 i).toInt ∧ (a5 i).toInt < 1024) ∧ (∀ i, 0 ≤ (a6 i).toInt ∧ (a6 i).toInt < 2048) := by
  have h0 := congrFun h ValueIdx.ix0
  dsimp only [fn, fn_part1, fn_part2] at h0
  -- the bit is a left-nested conjunction of nine bits
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  have c1024 : (1024#32 : BitVec 32).toInt = 1024 := by decide
  have c2048 : (2048#32 : BitVec 32).toInt = 2048 := by decide
  refine ⟨real_of_all _ _ _ a0 h0, real_of_all _ _ _ a1 h1, real_of_all _ _ _ a2 h2, real_of_all _ _ _ a3 h3,
    real_of_all _ _ _ a4 h4, fun i => ⟨nonneg_of_all _ _ _ a5 h5 i, ?_⟩, fun i => ⟨nonneg_of_all _ _ _ a6 h7 i, ?_⟩⟩
  · have := lt_of_all _ _ _ a5 _ h6 i
    rwa [c1024] at this
  · have := lt_of_all _ _ _ a6 _ h8 i
    rwa [c2048] at this

end Cert.PreDecode

end
-- ==== Proof.Algebra.lean ====
import proofs.«430668_j15814069584181_3_alg».proof.Proof.Spec
import proofs.«430668_j15814069584181_3_alg».proof.Proof.LibRealSums

/-! # The dense form equals the sparse form

For real inputs, `Cert.Residual.kval` at the weight matrix `mintAt`, the flattened loads and reactions and the scale
`1 / 8388608` is `Cert.Residual.rval` at the divisor `8388608 = 4096 * 1024 * 2`.

The proof moves to the real numbers: each definition of the specification has a real-valued mirror, equal to it at
coerced inputs. Among reals, column `2 n + c` of the weight matrix collects exactly channel `c` of the incidence entries
of node `n`, so the dense residual at that column is the sparse residual at `(n, c)`; the sixteen blocks of 256 rows
enumerate the 4096 batch rows once each, and the columns `2 n + c` enumerate the 2048 columns once each. -/

open scoped BigOperators

noncomputable section

namespace Cert.Residual

open Idealize.ShloMosaic Idealize.ShloMosaic.RealSums

/-! ## Real-valued mirrors -/

section mirrors
variable (EA e : Fin 4096 → Fin 2048 → ℝ) (vecs : Fin 4096 → Fin 2 → ℝ)
  (q r : Fin 4096 → Fin 1024 → Fin 2 → ℝ) (nd : Fin 4096 → Fin 1024) (el : Fin 4096 → Fin 2048)

/-- The weight matrix among reals. -/
def mintR (j col : Fin 2048) : ℝ :=
  (∑ k ∈ Finset.univ.filter (fun k : Fin 4096 => el k = j ∧ 2 * (nd k).val = col.val), vecs k 0)
  + (∑ k ∈ Finset.univ.filter (fun k : Fin 4096 => el k = j ∧ 2 * (nd k).val + 1 = col.val), vecs k 1)

/-- The flattened reading among reals. -/
def flatR (q : Fin 4096 → Fin 1024 → Fin 2 → ℝ) (b : Fin 4096) (col : Fin 2048) : ℝ :=
  q b ⟨col.val / 2, by omega⟩ ⟨col.val % 2, by omega⟩

/-- The sparse residual among reals. -/
def rresR (b : Fin 4096) (n : Fin 1024) (c : Fin 2) : ℝ :=
  ((∑ k ∈ Finset.univ.filter (fun k : Fin 4096 => nd k = n), (EA b (el k) * e b (el k)) * vecs k c) - q b n c) - r b n c

/-- The dense residual among reals. -/
def kresR (b : Fin 4096) (col : Fin 2048) : ℝ :=
  ((∑ j : Fin 2048, (EA b j * e b j) * mintR vecs nd el j col) - flatR q b col) - flatR r b col

theorem mintAt_coe (j col : Fin 2048) :
    mintAt (fun k c => ((vecs k c : ℝ) : EReal)) nd el j col = ((mintR vecs nd el j col : ℝ) : EReal) := by
  unfold mintAt mintR
  simp only [EReal.coe_add, coe_sum]

theorem flat_coe (q : Fin 4096 → Fin 1024 → Fin 2 → ℝ) (b : Fin 4096) (col : Fin 2048) :
    flat (fun b n c => ((q b n c : ℝ) : EReal)) b col = ((flatR q b col : ℝ) : EReal) := rfl

theorem rres_coe (b : Fin 4096) (n : Fin 1024) (c : Fin 2) :
    rres (fun b j => ((EA b j : ℝ) : EReal)) (fun b j => ((e b j : ℝ) : EReal)) (fun k c => ((vecs k c : ℝ) : EReal))
      (fun b n c => ((q b n c : ℝ) : EReal)) (fun b n c => ((r b n c : ℝ) : EReal)) nd el b n c
      = ((rresR EA e vecs q r nd el b n c : ℝ) : EReal) := by
  unfold rres rresR
  simp only [EReal.coe_sub, coe_sum, EReal.coe_mul]

theorem kres_coe (b : Fin 4096) (col : Fin 2048) :
    kres (fun b j => ((EA b j : ℝ) : EReal)) (fun b j => ((e b j : ℝ) : EReal))
      (mintAt (fun k c => ((vecs k c : ℝ) : EReal)) nd el)
      (flat (fun b n c => ((q b n c : ℝ) : EReal))) (flat (fun b n c => ((r b n c : ℝ) : EReal))) b col
      = ((kresR EA e vecs q r nd el b col : ℝ) : EReal) := by
  unfold kres kresR
  simp only [mintAt_coe, flat_coe, EReal.coe_sub, coe_sum, EReal.coe_mul]

/-! ## Column `2 n + c` of the weight matrix -/

/-- Column `2 n + c` collects channel `c` of the incidence entries of node `n`: an even column is never odd. -/
theorem mintR_fcol (j : Fin 2048) (n : Fin 1024) (c : Fin 2) :
    mintR vecs nd el j (fcol n c)
      = ∑ k ∈ Finset.univ.filter (fun k : Fin 4096 => el k = j ∧ nd k = n), vecs k c := by
  unfold mintR
  simp only [Finset.sum_filter]
  rw [← Finset.sum_add_distrib]
  refine Finset.sum_congr rfl fun k _ => ?_
  revert c
  rw [Fin.forall_fin_two]
  constructor
  · have hA : (2 * (nd k).val = (fcol n 0).val) ↔ nd k = n := by
      simp only [fcol, Fin.val_zero]
      exact ⟨fun h => Fin.ext (by omega), fun h => by subst h; omega⟩
    have hB : ¬ (2 * (nd k).val + 1 = (fcol n 0).val) := by
      simp only [fcol, Fin.val_zero]; omega
    simp only [hA, hB, and_false, if_false, add_zero]
  · have hA : ¬ (2 * (nd k).val = (fcol n 1).val) := by
      simp only [fcol, Fin.val_one]; omega
    have hB : (2 * (nd k).val + 1 = (fcol n 1).val) ↔ nd k = n := by
      simp only [fcol, Fin.val_one]
      exact ⟨fun h => Fin.ext (by omega), fun h => by subst h; omega⟩
    simp only [hA, hB, and_false, if_false, zero_add]

/-- Forces times column `2 n + c`: each incidence entry of node `n` contributes its own element's force. -/
theorem force_fcol (b : Fin 4096) (n : Fin 1024) (c : Fin 2) :
    ∑ j : Fin 2048, (EA b j * e b j) * mintR vecs nd el j (fcol n c)
      = ∑ k ∈ Finset.univ.filter (fun k : Fin 4096 => nd k = n), (EA b (el k) * e b (el k)) * vecs k c := by
  simp only [mintR_fcol, Finset.sum_filter, Finset.mul_sum, mul_ite, mul_zero]
  rw [Finset.sum_comm]
  refine Finset.sum_congr rfl fun k _ => ?_
  by_cases h : nd k = n
  · simp only [h, and_true, if_true]
    rw [Finset.sum_ite_eq]
    simp only [Finset.mem_univ, if_true]
  · simp only [h, and_false, if_false, Finset.sum_const_zero]

theorem flatR_fcol (q : Fin 4096 → Fin 1024 → Fin 2 → ℝ) (b : Fin 4096) (n : Fin 1024) (c : Fin 2) :
    flatR q b (fcol n c) = q b n c := by
  unfold flatR
  congr 1
  · exact Fin.ext (by simp only [fcol]; omega)
  · exact Fin.ext (by simp only [fcol]; omega)

/-- The dense residual at column `2 n + c` is the sparse residual at node `n`, channel `c`. -/
theorem kresR_fcol (b : Fin 4096) (n : Fin 1024) (c : Fin 2) :
    kresR EA e vecs q r nd el b (fcol n c) = rresR EA e vecs q r nd el b n c := by
  unfold kresR rresR
  rw [force_fcol, flatR_fcol, flatR_fcol]

end mirrors

/-! ## Re-indexing rows and columns -/

/-- Batch row `256 (8 c + i) + p`: the rows of the sixteen blocks are all 4096 rows, once each. -/
def rowEquiv : Fin 2 × Fin 8 × Fin 256 ≃ Fin 4096 where
  toFun x := brow (gidx x.1 x.2.1) x.2.2
  invFun b := (⟨b.val / 2048, by omega⟩, ⟨b.val / 256 % 8, by omega⟩, ⟨b.val % 256, by omega⟩)
  left_inv x := by
    obtain ⟨c, i, p⟩ := x
    refine Prod.ext (Fin.ext ?_) (Prod.ext (Fin.ext ?_) (Fin.ext ?_)) <;> simp only [brow, gidx] <;> omega
  right_inv b := by
    refine Fin.ext ?_
    simp only [brow, gidx]
    omega

/-- Column `2 n + c`: the (node, channel) pairs are all 2048 columns, once each. -/
def colEquiv : Fin 1024 × Fin 2 ≃ Fin 2048 where
  toFun x := fcol x.1 x.2
  invFun col := (⟨col.val / 2, by omega⟩, ⟨col.val % 2, by omega⟩)
  left_inv x := by
    obtain ⟨n, c⟩ := x
    refine Prod.ext (Fin.ext ?_) (Fin.ext ?_) <;> simp only [fcol] <;> omega
  right_inv col := by
    refine Fin.ext ?_
    simp only [fcol]
    omega

theorem sum_rows (g : Fin 4096 → ℝ) :
    ∑ c : Fin 2, ∑ i : Fin 8, ∑ p : Fin 256, g (brow (gidx c i) p) = ∑ b : Fin 4096, g b := by
  rw [← Fintype.sum_equiv rowEquiv (fun x => g (brow (gidx x.1 x.2.1) x.2.2)) g (fun _ => rfl)]
  simp only [Fintype.sum_prod_type]

theorem sum_cols (h : Fin 2048 → ℝ) :
    ∑ col : Fin 2048, h col = ∑ n : Fin 1024, ∑ c : Fin 2, h (fcol n c) := by
  rw [← Fintype.sum_equiv colEquiv (fun x => h (fcol x.1 x.2)) h (fun _ => rfl)]
  simp only [Fintype.sum_prod_type]

/-- THE REAL IDENTITY: the two scaled partial sums of squared dense residuals add up to the scaled sum of squared
    sparse residuals. -/
theorem real_identity (EA e : Fin 4096 → Fin 2048 → ℝ) (vecs : Fin 4096 → Fin 2 → ℝ)
    (q r : Fin 4096 → Fin 1024 → Fin 2 → ℝ) (nd : Fin 4096 → Fin 1024) (el : Fin 4096 → Fin 2048) :
    (∑ i : Fin 8, ∑ p : Fin 256, ∑ col : Fin 2048,
        kresR EA e vecs q r nd el (brow (gidx 0 i) p) col * kresR EA e vecs q r nd el (brow (gidx 0 i) p) col)
        * (1 / 8388608 : ℝ)
      + (∑ i : Fin 8, ∑ p : Fin 256, ∑ col : Fin 2048,
        kresR EA e vecs q r nd el (brow (gidx 1 i) p) col * kresR EA e vecs q r nd el (brow (gidx 1 i) p) col)
        * (1 / 8388608 : ℝ)
      = (∑ b : Fin 4096, ∑ n : Fin 1024, ∑ c : Fin 2,
          rresR EA e vecs q r nd el b n c * rresR EA e vecs q r nd el b n c) * (8388608 : ℝ)⁻¹ := by
  rw [← add_mul, one_div]
  congr 1
  have h2 := Fin.sum_univ_two (fun c : Fin 2 => ∑ i : Fin 8, ∑ p : Fin 256, ∑ col : Fin 2048,
        kresR EA e vecs q r nd el (brow (gidx c i) p) col * kresR EA e vecs q r nd el (brow (gidx c i) p) col)
  rw [← h2]
  rw [sum_rows (fun b => ∑ col : Fin 2048, kresR EA e vecs q r nd el b col * kresR EA e vecs q r nd el b col)]
  refine Finset.sum_congr rfl fun b _ => ?_
  rw [sum_cols]
  simp only [kresR_fcol]

/-- THE BRIDGE: the dense form with the incidence weights is the sparse form. -/
theorem kval_eq_rval (EA e : Fin 4096 → Fin 2048 → EReal) (vecs : Fin 4096 → Fin 2 → EReal)
    (q r : Fin 4096 → Fin 1024 → Fin 2 → EReal) (nd : Fin 4096 → Fin 1024) (el : Fin 4096 → Fin 2048)
    (hEA : ∀ b j, IsReal (EA b j)) (he : ∀ b j, IsReal (e b j)) (hv : ∀ k c, IsReal (vecs k c))
    (hq : ∀ b n c, IsReal (q b n c)) (hr : ∀ b n c, IsReal (r b n c)) :
    kval EA e (mintAt vecs nd el) (flat q) (flat r) (((1 / 8388608 : ℝ)) : EReal)
      = rval EA e vecs q r nd el ((8388608 : ℝ) : EReal) := by
  choose EA' hEA' using hEA
  choose e' he' using he
  choose v' hv' using hv
  choose q' hq' using hq
  choose r' hr' using hr
  obtain rfl : EA = fun b j => ((EA' b j : ℝ) : EReal) := funext fun b => funext fun j => hEA' b j
  obtain rfl : e = fun b j => ((e' b j : ℝ) : EReal) := funext fun b => funext fun j => he' b j
  obtain rfl : vecs = fun k c => ((v' k c : ℝ) : EReal) := funext fun k => funext fun c => hv' k c
  obtain rfl : q = fun b n c => ((q' b n c : ℝ) : EReal) :=
    funext fun b => funext fun n => funext fun c => hq' b n c
  obtain rfl : r = fun b n c => ((r' b n c : ℝ) : EReal) :=
    funext fun b => funext fun n => funext fun c => hr' b n c
  have hK : ((8388608 : ℝ) : EReal) ≠ 0 := EReal.coe_ne_zero.mpr (by norm_num)
  unfold kval kcore kblock rval
  rw [Ideal.div, if_neg hK]
  simp only [kres_coe, rres_coe, ← EReal.coe_inv, ← EReal.coe_mul, ← coe_sum, ← EReal.coe_add]
  rw [EReal.coe_eq_coe_iff]
  exact real_identity EA' e' v' q' r' nd el

end Cert.Residual

end
-- ==== Proof.Consts.lean ====
import Idealize.ShloMosaic.PureOps.Ideal

/-! # Two float constants as extended reals

The 32-bit float words `0x34000000` and `0x4B000000` have a clear sign bit, a zero mantissa field, and exponent fields `104`
and `150`; with the bias `127` and the 23 mantissa bits they denote `2^23 * 2^(104 - 127 - 23) = 2^(-23) = 1 / 8388608` and
`2^23 * 2^(150 - 127 - 23) = 2^23 = 8388608`. -/

noncomputable section

namespace Cert.Consts

open Idealize.ShloMosaic

/-- The word of `2^(-23)`: the reciprocal of `8388608`. -/
theorem ofBits_inv_count : Ideal.ofBits .f32 0x34000000#32 = (((1 / 8388608 : ℝ)) : EReal) := by
  have hneg : ((0x34000000#32).extractLsb' (8 + 23) 1 == 1#1) = false := by decide
  have hex : ((0x34000000#32).extractLsb' 23 8).toNat = 104 := by decide
  have hfr : ((0x34000000#32).extractLsb' 0 23).toNat = 0 := by decide
  show Ideal.ieee 8 23 (0x34000000#32) = _
  unfold Ideal.ieee
  simp only [hneg, hex, hfr]
  norm_num

/-- The word of `2^23 = 8388608`. -/
theorem ofBits_count : Ideal.ofBits .f32 0x4B000000#32 = ((8388608 : ℝ) : EReal) := by
  have hneg : ((0x4B000000#32).extractLsb' (8 + 23) 1 == 1#1) = false := by decide
  have hex : ((0x4B000000#32).extractLsb' 23 8).toNat = 150 := by decide
  have hfr : ((0x4B000000#32).extractLsb' 0 23).toNat = 0 := by decide
  show Ideal.ieee 8 23 (0x4B000000#32) = _
  unfold Ideal.ieee
  simp only [hneg, hex, hfr]
  norm_num

end Cert.Consts

end
-- ==== Proof.lean ====
/- The certificate's claims, assembled.

   Both programs compute the mean squared nodal residual of a truss batch. The reference gathers each incidence entry's
   element force, scales it by the entry's vector and adds the entries of each node; the kernel first adds the incidence
   vectors into a dense weight matrix, multiplies the forces by it block by block on a 2 x 8 grid, accumulates the squared
   residuals of each half of the batch in a scalar, scales each half's total by 1 / 8388608 and lets the host add the two.
   Under the precondition (real float inputs, node and element ids in range) the two are the same real number:
   the kernel's value is read off its frame run (`KValue.run`), the reference's off its run (`RefValue.val_eq`), the
   weight matrix and the flattened loads off the host lines before the launch (`HostValue`), and `kval_eq_rval` joins them. -/
import proofs.«430668_j15814069584181_3_alg».proof.Defs
import proofs.«430668_j15814069584181_3_alg».proof.Proof.Gen.Kernel
import proofs.«430668_j15814069584181_3_alg».proof.Proof.Gen.Kernel.Skeleton
import proofs.«430668_j15814069584181_3_alg».proof.Proof.Gen.Kernel.Launch
import proofs.«430668_j15814069584181_3_alg».proof.Proof.Gen.Kernel.Points
import proofs.«430668_j15814069584181_3_alg».proof.Proof.Gen.Kernel.Frame
import proofs.«430668_j15814069584181_3_alg».proof.Proof.Gen.KernelIdeal
import proofs.«430668_j15814069584181_3_alg».proof.Proof.Gen.KernelIdeal.Skeleton
import proofs.«430668_j15814069584181_3_alg».proof.Proof.Gen.KernelIdeal.Launch
import proofs.«430668_j15814069584181_3_alg».proof.Proof.Gen.KernelIdeal.Points
import proofs.«430668_j15814069584181_3_alg».proof.Proof.Gen.KernelIdeal.Frame
import proofs.«430668_j15814069584181_3_alg».proof.Proof.Gen.ReferenceIdeal
import proofs.«430668_j15814069584181_3_alg».proof.Proof.Gen.ReferenceIdeal.Run
import proofs.«430668_j15814069584181_3_alg».proof.Proof.Gen.ReferenceIdeal.Read
import proofs.«430668_j15814069584181_3_alg».proof.Proof.Gen.Pre_finite_inputs
import proofs.«430668_j15814069584181_3_alg».proof.Proof.KernelValue
import proofs.«430668_j15814069584181_3_alg».proof.Proof.KernelHost
import proofs.«430668_j15814069584181_3_alg».proof.Proof.RefValue
import proofs.«430668_j15814069584181_3_alg».proof.Proof.PreDecode
import proofs.«430668_j15814069584181_3_alg».proof.Proof.Algebra
import proofs.«430668_j15814069584181_3_alg».proof.Proof.Consts
import Idealize.ShloMosaic.Adequacy
import Idealize.ShloMosaic.Init

noncomputable section

namespace Cert.Proof

open Idealize.ShloMosaic Idealize.ShloMosaic.TcCoe Idealize.ShloMosaic.ValueIdx Idealize.SL.Sem
open Idealize.ShloMosaic.RealSums Cert.Residual

section
variable [Cert.Kernel.Facts] [Cert.KernelIdeal.Facts] [Cert.ReferenceIdeal.Facts] [Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- A word that reads as a non-negative integer below `N` names an element of `Fin N`. -/
theorem word_fin {N : ℕ} (w : BitVec 32) (h : 0 ≤ w.toInt ∧ w.toInt < (N : Int)) :
    ∃ a : Fin N, w.toInt = ((a.val : ℕ) : Int) :=
  ⟨⟨w.toInt.toNat, by omega⟩, by show w.toInt = ((w.toInt.toNat : ℕ) : Int); omega⟩

theorem algebraic : Cert.algebraic_KernelIdeal_ReferenceIdeal := by
  intro m ρ m' ρ' hpre hagree
  -- the precondition, decoded on each core
  have hdec := fun c => Cert.PreDecode.decode _ _ _ _ _ _ _ (hpre c)
  have hnd : ∀ c : Dev Cert.KernelIdeal.nD, ∃ nd : Fin 4096 → Fin 1024, ∀ k : Fin 4096,
      (m ((c.tc : Thread Cert.KernelIdeal.nD Cert.KernelIdeal.τ).loc Cert.KernelIdeal.main_arg5) (ix1 k)).toInt = ((nd k).val : Int) :=
    fun c => ⟨fun k => (word_fin _ ((hdec c).2.2.2.2.2.1 (ix1 k))).choose, fun k => (word_fin _ ((hdec c).2.2.2.2.2.1 (ix1 k))).choose_spec⟩
  have hel : ∀ c : Dev Cert.KernelIdeal.nD, ∃ el : Fin 4096 → Fin 2048, ∀ k : Fin 4096,
      (m ((c.tc : Thread Cert.KernelIdeal.nD Cert.KernelIdeal.τ).loc Cert.KernelIdeal.main_arg6) (ix1 k)).toInt = ((el k).val : Int) :=
    fun c => ⟨fun k => (word_fin _ ((hdec c).2.2.2.2.2.2 (ix1 k))).choose, fun k => (word_fin _ ((hdec c).2.2.2.2.2.2 (ix1 k))).choose_spec⟩
  choose nd hnd using hnd
  choose el hel using hel
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  rw [Cert.ReferenceIdeal.Read.val_main_v25_eq, Cert.ReferenceIdeal.RefValue.val_eq _ _ _ _ _ _ _ (nd c) (el c) (hnd c) (hel c)]
  funext _
  have hM : Cert.KernelIdeal.KValue.fM m c = mintAt (fun k ch => m ((c.tc : Thread Cert.KernelIdeal.nD Cert.KernelIdeal.τ).loc Cert.KernelIdeal.main_arg4) (ix2 k ch)) (nd c) (el c) :=
    funext fun j => funext fun col => Cert.KernelIdeal.HostValue.V_mint m c (nd c) (el c) (hnd c) (hel c) j col
  have hQ : Cert.KernelIdeal.KValue.fQ m c = flat (fun b n ch => m ((c.tc : Thread Cert.KernelIdeal.nD Cert.KernelIdeal.τ).loc Cert.KernelIdeal.main_arg2) (ix3 b n ch)) :=
    funext fun b => funext fun col => Cert.KernelIdeal.HostValue.V_qflat m c b col
  have hR : Cert.KernelIdeal.KValue.fR m c = flat (fun b n ch => m ((c.tc : Thread Cert.KernelIdeal.nD Cert.KernelIdeal.τ).loc Cert.KernelIdeal.main_arg3) (ix3 b n ch)) :=
    funext fun b => funext fun col => Cert.KernelIdeal.HostValue.V_rflat m c b col
  have hA : Cert.KernelIdeal.KValue.fEA m c = fun b j => m ((c.tc : Thread Cert.KernelIdeal.nD Cert.KernelIdeal.τ).loc Cert.KernelIdeal.main_arg0) (ix2 b j) := by
    funext b j; show Cert.KernelIdeal.Gen.V m c Cert.KernelIdeal.main_arg0 _ = _; rw [Cert.KernelIdeal.Gen.V_main_arg0]
  have hE : Cert.KernelIdeal.KValue.fE m c = fun b j => m ((c.tc : Thread Cert.KernelIdeal.nD Cert.KernelIdeal.τ).loc Cert.KernelIdeal.main_arg1) (ix2 b j) := by
    funext b j; show Cert.KernelIdeal.Gen.V m c Cert.KernelIdeal.main_arg1 _ = _; rw [Cert.KernelIdeal.Gen.V_main_arg1]
  show _ = kval (Cert.KernelIdeal.KValue.fEA m c) (Cert.KernelIdeal.KValue.fE m c) (Cert.KernelIdeal.KValue.fM m c)
    (Cert.KernelIdeal.KValue.fQ m c) (Cert.KernelIdeal.KValue.fR m c) Cert.KernelIdeal.KValue.kk
  rw [hM, hQ, hR, hA, hE, Cert.KernelIdeal.KValue.kk, Cert.Consts.ofBits_inv_count, Cert.Consts.ofBits_count]
  exact (kval_eq_rval _ _ _ _ _ (nd c) (el c) (fun b j => (hdec c).1 _) (fun b j => (hdec c).2.1 _) (fun k ch => (hdec c).2.2.2.2.1 _)
    (fun b n ch => (hdec c).2.2.1 _) (fun b n ch => (hdec c).2.2.2.1 _)).symm

end

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
